-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x49x512 : Shape := ⟨3, ![2048, 49, 512]⟩
abbrev S64x49x49 : Shape := ⟨3, ![64, 49, 49]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S169x16 : Shape := ⟨2, ![169, 16]⟩
abbrev S49x49 : Shape := ⟨2, ![49, 49]⟩
abbrev S_ : Shape := ⟨0, ![]⟩

class Facts : Prop where
  bcast_S_S2048x49x512 : S_.BroadcastsInDim S2048x49x512 (![] : Fin 0 → Fin S2048x49x512.rank)
  reducesTo_S2048x49x512_S_d0_1_2 : S2048x49x512.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S169x16 : S_.BroadcastsInDim S169x16 (![] : Fin 0 → Fin S169x16.rank)
  reducesTo_S169x16_S_d0_1 : S169x16.ReducesTo [0, 1] S_

variable [Facts]

def fn_part1 {F : FTy → Type} [FloatOps F] (main_arg4 : FVec F S512x512 .f32) (main_arg5 : FVec F S512 .f32) (main_arg6 : FVec F S169x16 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S169x16 .f32 := Host.absf main_arg6
  let main_cst_10 : FVec F S_ .f32 := constant S_ .f32 0x7F800000#32
  let main_v30 : FVec F S169x16 .f32 := broadcastInDim S169x16 ![] bcast_S_S169x16 main_cst_10
  let main_v31 : IVec S169x16 1 := cmpf .olt main_v29 main_v30
  let main_c_11 : IVec S_ 1 := constantI S_ 1 1#1
  let main_v32 : IVec S_ 1 := (fun x v => Host.reduce IntOp.andi x v reducesTo_S169x16_S_d0_1 h_S_) main_v31 main_c_11
  let main_v33 : IVec S_ 1 := andi main_v28 main_v32
  main_v33

def fn {F : FTy → Type} [FloatOps F] (main_arg0 : FVec F S2048x49x512 .f32) (main_arg1 : FVec F S64x49x49 .f32) (main_arg2 : FVec F S1536x512 .f32) (main_arg3 : FVec F S1536 .f32) (main_arg4 : FVec F S512x512 .f32) (main_arg5 : FVec F S512 .f32) (main_arg6 : FVec F S169x16 .f32) (main_arg7 : IVec S49x49 32) : IVec S_ 1 :=
  let main_v0 : FVec F S2048x49x512 .f32 := Host.absf main_arg0
  let main_cst : FVec F S_ .f32 := constant S_ .f32 0x7F800000#32
  let main_v1 : FVec F S2048x49x512 .f32 := broadcastInDim S2048x49x512 ![] bcast_S_S2048x49x512 main_cst
  let main_v2 : IVec S2048x49x512 1 := cmpf .olt main_v0 main_v1
  let main_c : IVec S_ 1 := constantI S_ 1 1#1
  let main_v3 : IVec S_ 1 := (fun x v => Host.reduce IntOp.andi x v reducesTo_S2048x49x512_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_arg6 main_v13 main_v16
-- ==== Kernel.lean ====
abbrev S2048x49x512 : Shape := ⟨3, ![2048, 49, 512]⟩
abbrev S64x49x49 : Shape := ⟨3, ![64, 49, 49]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S169x16 : Shape := ⟨2, ![169, 16]⟩
abbrev S49x49 : Shape := ⟨2, ![49, 49]⟩
abbrev S512x1536 : Shape := ⟨2, ![512, 1536]⟩
abbrev S1x1536 : Shape := ⟨2, ![1, 1536]⟩
abbrev S1x512 : Shape := ⟨2, ![1, 512]⟩
abbrev S_ : Shape := ⟨0, ![]⟩
abbrev S49x49x1 : Shape := ⟨3, ![49, 49, 1]⟩
abbrev S49x49x16 : Shape := ⟨3, ![49, 49, 16]⟩
abbrev S16x49x49 : Shape := ⟨3, ![16, 49, 49]⟩
abbrev S16x49x512 : Shape := ⟨3, ![16, 49, 512]⟩
abbrev S784x512 : Shape := ⟨2, ![784, 512]⟩
abbrev S784x1536 : Shape := ⟨2, ![784, 1536]⟩
abbrev S16x49x1536 : Shape := ⟨3, ![16, 49, 1536]⟩
abbrev S16x49x32 : Shape := ⟨3, ![16, 49, 32]⟩
abbrev S1x49x49 : Shape := ⟨3, ![1, 49, 49]⟩
abbrev S16x49 : Shape := ⟨2, ![16, 49]⟩
abbrev S16x49x1 : Shape := ⟨3, ![16, 49, 1]⟩

abbrev nBuf : Space → Nat
  | .hbm => 23
  | .vmem => 11
  | .smem => 0
  | _ => 0

abbrev bufTy : (tb : Table) → Fin (tcTables nBuf tb) → BufTy
  | .hbm, ⟨0, _⟩ => ⟨S2048x49x512, .f32⟩
  | .hbm, ⟨1, _⟩ => ⟨S64x49x49, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S169x16, .f32⟩
  | .hbm, ⟨7, _⟩ => ⟨S49x49, .i32⟩
  | .hbm, ⟨8, _⟩ => ⟨S512x1536, .f32⟩
  | .hbm, ⟨9, _⟩ => ⟨S1x1536, .f32⟩
  | .hbm, ⟨10, _⟩ => ⟨S512x512, .f32⟩
  | .hbm, ⟨11, _⟩ => ⟨S1x512, .f32⟩
  | .hbm, ⟨12, _⟩ => ⟨S_, .i32⟩
  | .hbm, ⟨13, _⟩ => ⟨S49x49, .i32⟩
  | .hbm, ⟨14, _⟩ => ⟨S49x49, .i1⟩
  | .hbm, ⟨15, _⟩ => ⟨S_, .i32⟩
  | .hbm, ⟨16, _⟩ => ⟨S49x49, .i32⟩
  | .hbm, ⟨17, _⟩ => ⟨S49x49, .i32⟩
  | .hbm, ⟨18, _⟩ => ⟨S49x49, .i32⟩
  | .hbm, ⟨19, _⟩ => ⟨S49x49x1, .i32⟩
  | .hbm, ⟨20, _⟩ => ⟨S49x49x16, .f32⟩
  | .hbm, ⟨21, _⟩ => ⟨S16x49x49, .f32⟩
  | .hbm, ⟨22, _⟩ => ⟨S2048x49x512, .f32⟩
  | .local _ .vmem, ⟨0, _⟩ => ⟨S16x49x512, .f32⟩
  | .local _ .vmem, ⟨1, _⟩ => ⟨S16x49x512, .f32⟩
  | .local _ .vmem, ⟨2, _⟩ => ⟨S512x1536, .f32⟩
  | .local _ .vmem, ⟨3, _⟩ => ⟨S1x1536, .f32⟩
  | .local _ .vmem, ⟨4, _⟩ => ⟨S512x512, .f32⟩
  | .local _ .vmem, ⟨5, _⟩ => ⟨S1x512, .f32⟩
  | .local _ .vmem, ⟨6, _⟩ => ⟨S16x49x49, .f32⟩
  | .local _ .vmem, ⟨7, _⟩ => ⟨S16x49x49, .f32⟩
  | .local _ .vmem, ⟨8, _⟩ => ⟨S16x49x49, .f32⟩
  | .local _ .vmem, ⟨9, _⟩ => ⟨S16x49x512, .f32⟩
  | .local _ .vmem, ⟨10, _⟩ => ⟨S16x49x512, .f32⟩
  | _, _ => ⟨S2048x49x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x49x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x49x49 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x49x49 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x49x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1536x512_S512x1536_1_0 : S1536x512.Transposes [1, 0] S512x1536
  shapeCasts_S1536_S1x1536 : S1536.ShapeCasts S1x1536
  transposes_S512x512_S512x512_1_0 : S512x512.Transposes [1, 0] S512x512
  shapeCasts_S512_S1x512 : S512.ShapeCasts S1x512
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x16_S16x49x49_2_0_1 : S49x49x16.Transposes [2, 0, 1] S16x49x49
  inb_S16x49x512_S16x49x512_0_0_0 : ∀ a, (![0, 0, 0] : Fin 3 → Nat) a + S16x49x512.size a ≤ S16x49x512.size a
  h_S16x49x512 : 0 < S16x49x512.numel
  bitsLt_bf16_f32 : FTy.bits .bf16 < FTy.bits .f32
  shapeCasts_S16x49x512_S784x512 : S16x49x512.ShapeCasts S784x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S784x1536 : S1x1536.Broadcasts S784x1536
  shapeCasts_S784x1536_S16x49x1536 : S784x1536.ShapeCasts S16x49x1536
  slices_S16x49x1536_o0_0_0_S16x49x512 : S16x49x1536.Slices ![0, 0, 0] S16x49x512
  slices_S16x49x1536_o0_0_512_S16x49x512 : S16x49x1536.Slices ![0, 0, 512] S16x49x512
  slices_S16x49x1536_o0_0_1024_S16x49x512 : S16x49x1536.Slices ![0, 0, 1024] S16x49x512
  inb_S16x49x49_S16x49x49_0_0_0 : ∀ a, (![0, 0, 0] : Fin 3 → Nat) a + S16x49x49.size a ≤ S16x49x49.size a
  h_S16x49x49 : 0 < S16x49x49.numel
  slices_S16x49x512_o0_0_0_S16x49x32 : S16x49x512.Slices ![0, 0, 0] S16x49x32
  inb_S16x49x49_S1x49x49_0_0_0 : ∀ a, (![0, 0, 0] : Fin 3 → Nat) a + S1x49x49.size a ≤ S16x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S16x49x49 : S1x49x49.Broadcasts S16x49x49
  reduces_S16x49x49_S16x49 : S16x49x49.Reduces [2] S16x49
  shapeCasts_S16x49_S16x49x1 : S16x49.ShapeCasts S16x49x1
  broadcasts_S16x49x1_S16x49x49 : S16x49x1.Broadcasts S16x49x49
  slices_S16x49x512_o0_0_32_S16x49x32 : S16x49x512.Slices ![0, 0, 32] S16x49x32
  inb_S16x49x49_S1x49x49_1_0_0 : ∀ a, (![1, 0, 0] : Fin 3 → Nat) a + S1x49x49.size a ≤ S16x49x49.size a
  slices_S16x49x512_o0_0_64_S16x49x32 : S16x49x512.Slices ![0, 0, 64] S16x49x32
  inb_S16x49x49_S1x49x49_2_0_0 : ∀ a, (![2, 0, 0] : Fin 3 → Nat) a + S1x49x49.size a ≤ S16x49x49.size a
  slices_S16x49x512_o0_0_96_S16x49x32 : S16x49x512.Slices ![0, 0, 96] S16x49x32
  inb_S16x49x49_S1x49x49_3_0_0 : ∀ a, (![3, 0, 0] : Fin 3 → Nat) a + S1x49x49.size a ≤ S16x49x49.size a
  slices_S16x49x512_o0_0_128_S16x49x32 : S16x49x512.Slices ![0, 0, 128] S16x49x32
  inb_S16x49x49_S1x49x49_4_0_0 : ∀ a, (![4, 0, 0] : Fin 3 → Nat) a + S1x49x49.size a ≤ S16x49x49.size a
  slices_S16x49x512_o0_0_160_S16x49x32 : S16x49x512.Slices ![0, 0, 160] S16x49x32
  inb_S16x49x49_S1x49x49_5_0_0 : ∀ a, (![5, 0, 0] : Fin 3 → Nat) a + S1x49x49.size a ≤ S16x49x49.size a
  slices_S16x49x512_o0_0_192_S16x49x32 : S16x49x512.Slices ![0, 0, 192] S16x49x32
  inb_S16x49x49_S1x49x49_6_0_0 : ∀ a, (![6, 0, 0] : Fin 3 → Nat) a + S1x49x49.size a ≤ S16x49x49.size a
  slices_S16x49x512_o0_0_224_S16x49x32 : S16x49x512.Slices ![0, 0, 224] S16x49x32
  inb_S16x49x49_S1x49x49_7_0_0 : ∀ a, (![7, 0, 0] : Fin 3 → Nat) a + S1x49x49.size a ≤ S16x49x49.size a
  slices_S16x49x512_o0_0_256_S16x49x32 : S16x49x512.Slices ![0, 0, 256] S16x49x32
  inb_S16x49x49_S1x49x49_8_0_0 : ∀ a, (![8, 0, 0] : Fin 3 → Nat) a + S1x49x49.size a ≤ S16x49x49.size a
  slices_S16x49x512_o0_0_288_S16x49x32 : S16x49x512.Slices ![0, 0, 288] S16x49x32
  inb_S16x49x49_S1x49x49_9_0_0 : ∀ a, (![9, 0, 0] : Fin 3 → Nat) a + S1x49x49.size a ≤ S16x49x49.size a
  slices_S16x49x512_o0_0_320_S16x49x32 : S16x49x512.Slices ![0, 0, 320] S16x49x32
  inb_S16x49x49_S1x49x49_10_0_0 : ∀ a, (![10, 0, 0] : Fin 3 → Nat) a + S1x49x49.size a ≤ S16x49x49.size a
  slices_S16x49x512_o0_0_352_S16x49x32 : S16x49x512.Slices ![0, 0, 352] S16x49x32
  inb_S16x49x49_S1x49x49_11_0_0 : ∀ a, (![11, 0, 0] : Fin 3 → Nat) a + S1x49x49.size a ≤ S16x49x49.size a
  slices_S16x49x512_o0_0_384_S16x49x32 : S16x49x512.Slices ![0, 0, 384] S16x49x32
  inb_S16x49x49_S1x49x49_12_0_0 : ∀ a, (![12, 0, 0] : Fin 3 → Nat) a + S1x49x49.size a ≤ S16x49x49.size a
  slices_S16x49x512_o0_0_416_S16x49x32 : S16x49x512.Slices ![0, 0, 416] S16x49x32
  inb_S16x49x49_S1x49x49_13_0_0 : ∀ a, (![13, 0, 0] : Fin 3 → Nat) a + S1x49x49.size a ≤ S16x49x49.size a
  slices_S16x49x512_o0_0_448_S16x49x32 : S16x49x512.Slices ![0, 0, 448] S16x49x32
  inb_S16x49x49_S1x49x49_14_0_0 : ∀ a, (![14, 0, 0] : Fin 3 → Nat) a + S1x49x49.size a ≤ S16x49x49.size a
  slices_S16x49x512_o0_0_480_S16x49x32 : S16x49x512.Slices ![0, 0, 480] S16x49x32
  inb_S16x49x49_S1x49x49_15_0_0 : ∀ a, (![15, 0, 0] : Fin 3 → Nat) a + S1x49x49.size a ≤ S16x49x49.size a
  concatenates_S16x49x32_S16x49x32_S16x49x32_S16x49x32_S16x49x32_S16x49x32_S16x49x32_S16x49x32_S16x49x32_S16x49x32_S16x49x32_S16x49x32_S16x49x32_S16x49x32_S16x49x32_S16x49x32_S16x49x512_d2 : Shape.Concatenates [S16x49x32, S16x49x32, S16x49x32, S16x49x32, S16x49x32, S16x49x32, S16x49x32, S16x49x32, S16x49x32, S16x49x32, S16x49x32, S16x49x32, S16x49x32, S16x49x32, S16x49x32, S16x49x32] S16x49x512 2
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S784x512 : S1x512.Broadcasts S784x512
  shapeCasts_S784x512_S16x49x512 : S784x512.ShapeCasts S16x49x512
  gather_S169x16_S49x49x1_S49x49x16_2_0_n_n_0_2_116_wf : GatherDims.WF S169x16 S49x49x1 S49x49x16 [2] [0] [] [0] [] 2 ![1, 16]
  dot_S784x512_S512x1536_S784x1536_1_0_0_1_n_n_wf : DotDims.WF S784x512 S512x1536 S784x1536 [1] [0] [0] [1] [] []
  dot_S16x49x32_S16x49x32_S16x49x49_2_2_1_1_0_0_wf : DotDims.WF S16x49x32 S16x49x32 S16x49x49 [2] [2] [1] [1] [0] [0]
  dot_S16x49x49_S16x49x32_S16x49x32_2_1_1_2_0_0_wf : DotDims.WF S16x49x49 S16x49x32 S16x49x32 [2] [1] [1] [2] [0] [0]
  dot_S784x512_S512x512_S784x512_1_0_0_1_n_n_wf : DotDims.WF S784x512 S512x512 S784x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x49x512.size a ≤ S2048x49x512.size a
  hwx0_0 : ∀ i : grid0.Coords, EltTy.bits .f32 = 32 ∨ (Rect.block (s := S2048x49x512) S16x49x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x49x49.size a ≤ S16x49x49.size a
  hwx0_5 : ∀ i : grid0.Coords, EltTy.bits .f32 = 32 ∨ (Rect.block (s := S16x49x49) S16x49x49.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x49x49.size a ≤ S64x49x49.size a
  hwx0_6 : ∀ i : grid0.Coords, EltTy.bits .f32 = 32 ∨ (Rect.block (s := S64x49x49) S16x49x49.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x49x512.size a ≤ S2048x49x512.size a
  hwx0_7 : ∀ i : grid0.Coords, EltTy.bits .f32 = 32 ∨ (Rect.block (s := S2048x49x512) S16x49x512.size (cc0_transform_7 i) (hinb0_7 i)).WholeWords (EltTy.packing .f32)

variable [Facts₀]

def gather_S169x16_S49x49x1_S49x49x16_2_0_n_n_0_2_116 : GatherDims S169x16 S49x49x1 S49x49x16 where
  offsetDims := [2]
  collapsedSliceDims := [0]
  operandBatchingDims := []
  startIndicesBatchingDims := []
  startIndexMap := [0]
  indexVectorDim := 2
  sliceSizes := ![1, 16]
  wf := gather_S169x16_S49x49x1_S49x49x16_2_0_n_n_0_2_116_wf
def dot_S784x512_S512x1536_S784x1536_1_0_0_1_n_n : DotDims S784x512 S512x1536 S784x1536 where
  lhsContracting := [1]
  rhsContracting := [0]
  lhsNonContracting := [0]
  rhsNonContracting := [1]
  lhsBatch := []
  rhsBatch := []
  wf := dot_S784x512_S512x1536_S784x1536_1_0_0_1_n_n_wf
def dot_S16x49x32_S16x49x32_S16x49x49_2_2_1_1_0_0 : DotDims S16x49x32 S16x49x32 S16x49x49 where
  lhsContracting := [2]
  rhsContracting := [2]
  lhsNonContracting := [1]
  rhsNonContracting := [1]
  lhsBatch := [0]
  rhsBatch := [0]
  wf := dot_S16x49x32_S16x49x32_S16x49x49_2_2_1_1_0_0_wf
def dot_S16x49x49_S16x49x32_S16x49x32_2_1_1_2_0_0 : DotDims S16x49x49 S16x49x32 S16x49x32 where
  lhsContracting := [2]
  rhsContracting := [1]
  lhsNonContracting := [1]
  rhsNonContracting := [2]
  lhsBatch := [0]
  rhsBatch := [0]
  wf := dot_S16x49x49_S16x49x32_S16x49x32_2_1_1_2_0_0_wf
def dot_S784x512_S512x512_S784x512_1_0_0_1_n_n : DotDims S784x512 S512x512 S784x512 where
  lhsContracting := [1]
  rhsContracting := [0]
  lhsNonContracting := [0]
  rhsNonContracting := [1]
  lhsBatch := []
  rhsBatch := []
  wf := dot_S784x512_S512x512_S784x512_1_0_0_1_n_n_wf

abbrev win0_0 : Pipeline.Window sig grid0 :=
  Pipeline.Window.ofSpec (Memref.whole main_arg0) S16x49x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S16x49x49.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S16x49x49.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S16x49x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x49x512 : Shape := ⟨3, ![2048, 49, 512]⟩
abbrev S64x49x49 : Shape := ⟨3, ![64, 49, 49]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S169x16 : Shape := ⟨2, ![169, 16]⟩
abbrev S49x49 : Shape := ⟨2, ![49, 49]⟩
abbrev S2048x49x1536 : Shape := ⟨3, ![2048, 49, 1536]⟩
abbrev S1x1x1536 : Shape := ⟨3, ![1, 1, 1536]⟩
abbrev S2048x49x3x16x32 : Shape := ⟨5, ![2048, 49, 3, 16, 32]⟩
abbrev S3x2048x16x49x32 : Shape := ⟨5, ![3, 2048, 16, 49, 32]⟩
abbrev S1x2048x16x49x32 : Shape := ⟨5, ![1, 2048, 16, 49, 32]⟩
abbrev S2048x16x49x32 : Shape := ⟨4, ![2048, 16, 49, 32]⟩
abbrev S2048x16x49x49 : Shape := ⟨4, ![2048, 16, 49, 49]⟩
abbrev S_ : Shape := ⟨0, ![]⟩
abbrev S49x49x1 : Shape := ⟨3, ![49, 49, 1]⟩
abbrev S49x49x16 : Shape := ⟨3, ![49, 49, 16]⟩
abbrev S16x49x49 : Shape := ⟨3, ![16, 49, 49]⟩
abbrev S1x16x49x49 : Shape := ⟨4, ![1, 16, 49, 49]⟩
abbrev S32x64x16x49x49 : Shape := ⟨5, ![32, 64, 16, 49, 49]⟩
abbrev S1x64x1x49x49 : Shape := ⟨5, ![1, 64, 1, 49, 49]⟩
abbrev S2048x16x49 : Shape := ⟨3, ![2048, 16, 49]⟩
abbrev S2048x16x49x1 : Shape := ⟨4, ![2048, 16, 49, 1]⟩
abbrev S2048x16x32x49 : Shape := ⟨4, ![2048, 16, 32, 49]⟩
abbrev S2048x49x16x32 : Shape := ⟨4, ![2048, 49, 16, 32]⟩
abbrev S1x1x512 : Shape := ⟨3, ![1, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S2048x49x512, .f32⟩
  | .hbm, ⟨1, _⟩ => ⟨S64x49x49, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S169x16, .f32⟩
  | .hbm, ⟨7, _⟩ => ⟨S49x49, .i32⟩
  | .hbm, ⟨8, _⟩ => ⟨S2048x49x1536, .f32⟩
  | .hbm, ⟨9, _⟩ => ⟨S1x1x1536, .f32⟩
  | .hbm, ⟨10, _⟩ => ⟨S2048x49x1536, .f32⟩
  | .hbm, ⟨11, _⟩ => ⟨S2048x49x1536, .f32⟩
  | .hbm, ⟨12, _⟩ => ⟨S2048x49x3x16x32, .f32⟩
  | .hbm, ⟨13, _⟩ => ⟨S3x2048x16x49x32, .f32⟩
  | .hbm, ⟨14, _⟩ => ⟨S1x2048x16x49x32, .f32⟩
  | .hbm, ⟨15, _⟩ => ⟨S2048x16x49x32, .f32⟩
  | .hbm, ⟨16, _⟩ => ⟨S1x2048x16x49x32, .f32⟩
  | .hbm, ⟨17, _⟩ => ⟨S2048x16x49x32, .f32⟩
  | .hbm, ⟨18, _⟩ => ⟨S1x2048x16x49x32, .f32⟩
  | .hbm, ⟨19, _⟩ => ⟨S2048x16x49x32, .f32⟩
  | .hbm, ⟨20, _⟩ => ⟨S2048x16x49x49, .f32⟩
  | .hbm, ⟨21, _⟩ => ⟨S_, .f32⟩
  | .hbm, ⟨22, _⟩ => ⟨S2048x16x49x49, .f32⟩
  | .hbm, ⟨23, _⟩ => ⟨S2048x16x49x49, .f32⟩
  | .hbm, ⟨24, _⟩ => ⟨S_, .i32⟩
  | .hbm, ⟨25, _⟩ => ⟨S49x49, .i32⟩
  | .hbm, ⟨26, _⟩ => ⟨S49x49, .i1⟩
  | .hbm, ⟨27, _⟩ => ⟨S_, .i32⟩
  | .hbm, ⟨28, _⟩ => ⟨S49x49, .i32⟩
  | .hbm, ⟨29, _⟩ => ⟨S49x49, .i32⟩
  | .hbm, ⟨30, _⟩ => ⟨S49x49, .i32⟩
  | .hbm, ⟨31, _⟩ => ⟨S49x49x1, .i32⟩
  | .hbm, ⟨32, _⟩ => ⟨S49x49x16, .f32⟩
  | .hbm, ⟨33, _⟩ => ⟨S16x49x49, .f32⟩
  | .hbm, ⟨34, _⟩ => ⟨S1x16x49x49, .f32⟩
  | .hbm, ⟨35, _⟩ => ⟨S2048x16x49x49, .f32⟩
  | .hbm, ⟨36, _⟩ => ⟨S2048x16x49x49, .f32⟩
  | .hbm, ⟨37, _⟩ => ⟨S32x64x16x49x49, .f32⟩
  | .hbm, ⟨38, _⟩ => ⟨S1x64x1x49x49, .f32⟩
  | .hbm, ⟨39, _⟩ => ⟨S32x64x16x49x49, .f32⟩
  | .hbm, ⟨40, _⟩ => ⟨S32x64x16x49x49, .f32⟩
  | .hbm, ⟨41, _⟩ => ⟨S2048x16x49x49, .f32⟩
  | .hbm, ⟨42, _⟩ => ⟨S_, .f32⟩
  | .hbm, ⟨43, _⟩ => ⟨S2048x16x49, .f32⟩
  | .hbm, ⟨44, _⟩ => ⟨S_, .f32⟩
  | .hbm, ⟨45, _⟩ => ⟨S2048x16x49, .f32⟩
  | .hbm, ⟨46, _⟩ => ⟨S2048x16x49, .f32⟩
  | .hbm, ⟨47, _⟩ => ⟨S2048x16x49x1, .f32⟩
  | .hbm, ⟨48, _⟩ => ⟨S2048x16x49x49, .f32⟩
  | .hbm, ⟨49, _⟩ => ⟨S2048x16x49x49, .f32⟩
  | .hbm, ⟨50, _⟩ => ⟨S2048x16x49x49, .f32⟩
  | .hbm, ⟨51, _⟩ => ⟨S_, .f32⟩
  | .hbm, ⟨52, _⟩ => ⟨S2048x16x49, .f32⟩
  | .hbm, ⟨53, _⟩ => ⟨S2048x16x49x1, .f32⟩
  | .hbm, ⟨54, _⟩ => ⟨S2048x16x49x49, .f32⟩
  | .hbm, ⟨55, _⟩ => ⟨S2048x16x49x49, .f32⟩
  | .hbm, ⟨56, _⟩ => ⟨S2048x16x32x49, .f32⟩
  | .hbm, ⟨57, _⟩ => ⟨S2048x49x16x32, .f32⟩
  | .hbm, ⟨58, _⟩ => ⟨S2048x49x512, .f32⟩
  | .hbm, ⟨59, _⟩ => ⟨S2048x49x512, .f32⟩
  | .hbm, ⟨60, _⟩ => ⟨S1x1x512, .f32⟩
  | .hbm, ⟨61, _⟩ => ⟨S2048x49x512, .f32⟩
  | .hbm, ⟨62, _⟩ => ⟨S2048x49x512, .f32⟩
  | _, _ => ⟨S2048x49x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S2048x49x1536_0_1_2 : S1x1x1536.BroadcastsInDim S2048x49x1536 (![0, 1, 2] : Fin 3 → Fin S2048x49x1536.rank)
  shapeCasts_S2048x49x1536_S2048x49x3x16x32 : S2048x49x1536.ShapeCasts S2048x49x3x16x32
  transposes_S2048x49x3x16x32_S3x2048x16x49x32_2_0_3_1_4 : S2048x49x3x16x32.Transposes [2, 0, 3, 1, 4] S3x2048x16x49x32
  slices_S3x2048x16x49x32_S1x2048x16x49x32_0_0_0_0_0 : S3x2048x16x49x32.Slices ![0, 0, 0, 0, 0] S1x2048x16x49x32
  shapeCasts_S1x2048x16x49x32_S2048x16x49x32 : S1x2048x16x49x32.ShapeCasts S2048x16x49x32
  slices_S3x2048x16x49x32_S1x2048x16x49x32_1_0_0_0_0 : S3x2048x16x49x32.Slices ![1, 0, 0, 0, 0] S1x2048x16x49x32
  slices_S3x2048x16x49x32_S1x2048x16x49x32_2_0_0_0_0 : S3x2048x16x49x32.Slices ![2, 0, 0, 0, 0] S1x2048x16x49x32
  bcast_S_S2048x16x49x49 : S_.BroadcastsInDim S2048x16x49x49 (![] : Fin 0 → Fin S2048x16x49x49.rank)
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x16_S16x49x49_2_0_1 : S49x49x16.Transposes [2, 0, 1] S16x49x49
  bcast_S16x49x49_S1x16x49x49_1_2_3 : S16x49x49.BroadcastsInDim S1x16x49x49 (![1, 2, 3] : Fin 3 → Fin S1x16x49x49.rank)
  bcast_S1x16x49x49_S2048x16x49x49_0_1_2_3 : S1x16x49x49.BroadcastsInDim S2048x16x49x49 (![0, 1, 2, 3] : Fin 4 → Fin S2048x16x49x49.rank)
  shapeCasts_S2048x16x49x49_S32x64x16x49x49 : S2048x16x49x49.ShapeCasts S32x64x16x49x49
  bcast_S64x49x49_S1x64x1x49x49_1_3_4 : S64x49x49.BroadcastsInDim S1x64x1x49x49 (![1, 3, 4] : Fin 3 → Fin S1x64x1x49x49.rank)
  bcast_S1x64x1x49x49_S32x64x16x49x49_0_1_2_3_4 : S1x64x1x49x49.BroadcastsInDim S32x64x16x49x49 (![0, 1, 2, 3, 4] : Fin 5 → Fin S32x64x16x49x49.rank)
  shapeCasts_S32x64x16x49x49_S2048x16x49x49 : S32x64x16x49x49.ShapeCasts S2048x16x49x49
  reducesTo_S2048x16x49x49_S2048x16x49_d3 : S2048x16x49x49.ReducesTo [3] S2048x16x49
  h_S_ : 0 < S_.numel
  bcast_S_S2048x16x49 : S_.BroadcastsInDim S2048x16x49 (![] : Fin 0 → Fin S2048x16x49.rank)
  bcast_S2048x16x49_S2048x16x49x1_0_1_2 : S2048x16x49.BroadcastsInDim S2048x16x49x1 (![0, 1, 2] : Fin 3 → Fin S2048x16x49x1.rank)
  bcast_S2048x16x49x1_S2048x16x49x49_0_1_2_3 : S2048x16x49x1.BroadcastsInDim S2048x16x49x49 (![0, 1, 2, 3] : Fin 4 → Fin S2048x16x49x49.rank)
  transposes_S2048x16x32x49_S2048x49x16x32_0_3_1_2 : S2048x16x32x49.Transposes [0, 3, 1, 2] S2048x49x16x32
  shapeCasts_S2048x49x16x32_S2048x49x512 : S2048x49x16x32.ShapeCasts S2048x49x512
  bcast_S512_S1x1x512_2 : S512.BroadcastsInDim S1x1x512 (![2] : Fin 1 → Fin S1x1x512.rank)
  bcast_S1x1x512_S2048x49x512_0_1_2 : S1x1x512.BroadcastsInDim S2048x49x512 (![0, 1, 2] : Fin 3 → Fin S2048x49x512.rank)
  dot_S2048x49x512_S1536x512_S2048x49x1536_2_1_01_0_n_n_wf : DotDims.WF S2048x49x512 S1536x512 S2048x49x1536 [2] [1] [0, 1] [0] [] []
  dot_S2048x16x49x32_S2048x16x49x32_S2048x16x49x49_3_3_2_2_01_01_wf : DotDims.WF S2048x16x49x32 S2048x16x49x32 S2048x16x49x49 [3] [3] [2] [2] [0, 1] [0, 1]
  gather_S169x16_S49x49x1_S49x49x16_2_0_n_n_0_2_116_wf : GatherDims.WF S169x16 S49x49x1 S49x49x16 [2] [0] [] [0] [] 2 ![1, 16]
  dot_S2048x16x49x32_S2048x16x49x49_S2048x16x32x49_2_3_3_2_01_01_wf : DotDims.WF S2048x16x49x32 S2048x16x49x49 S2048x16x32x49 [2] [3] [3] [2] [0, 1] [0, 1]
  dot_S2048x49x512_S512x512_S2048x49x512_2_1_01_0_n_n_wf : DotDims.WF S2048x49x512 S512x512 S2048x49x512 [2] [1] [0, 1] [0] [] []

variable [Facts₀]

def dot_S2048x49x512_S1536x512_S2048x49x1536_2_1_01_0_n_n : DotDims S2048x49x512 S1536x512 S2048x49x1536 where
  lhsContracting := [2]
  rhsContracting := [1]
  lhsNonContracting := [0, 1]
  rhsNonContracting := [0]
  lhsBatch := []
  rhsBatch := []
  wf := dot_S2048x49x512_S1536x512_S2048x49x1536_2_1_01_0_n_n_wf
def dot_S2048x16x49x32_S2048x16x49x32_S2048x16x49x49_3_3_2_2_01_01 : DotDims S2048x16x49x32 S2048x16x49x32 S2048x16x49x49 where
  lhsContracting := [3]
  rhsContracting := [3]
  lhsNonContracting := [2]
  rhsNonContracting := [2]
  lhsBatch := [0, 1]
  rhsBatch := [0, 1]
  wf := dot_S2048x16x49x32_S2048x16x49x32_S2048x16x49x49_3_3_2_2_01_01_wf
def gather_S169x16_S49x49x1_S49x49x16_2_0_n_n_0_2_116 : GatherDims S169x16 S49x49x1 S49x49x16 where
  offsetDims := [2]
  collapsedSliceDims := [0]
  operandBatchingDims := []
  startIndicesBatchingDims := []
  startIndexMap := [0]
  indexVectorDim := 2
  sliceSizes := ![1, 16]
  wf := gather_S169x16_S49x49x1_S49x49x16_2_0_n_n_0_2_116_wf
def dot_S2048x16x49x32_S2048x16x49x49_S2048x16x32x49_2_3_3_2_01_01 : DotDims S2048x16x49x32 S2048x16x49x49 S2048x16x32x49 where
  lhsContracting := [2]
  rhsContracting := [3]
  lhsNonContracting := [3]
  rhsNonContracting := [2]
  lhsBatch := [0, 1]
  rhsBatch := [0, 1]
  wf := dot_S2048x16x49x32_S2048x16x49x49_S2048x16x32x49_2_3_3_2_01_01_wf
def dot_S2048x49x512_S512x512_S2048x49x512_2_1_01_0_n_n : DotDims S2048x49x512 S512x512 S2048x49x512 where
  lhsContracting := [2]
  rhsContracting := [1]
  lhsNonContracting := [0, 1]
  rhsNonContracting := [0]
  lhsBatch := []
  rhsBatch := []
  wf := dot_S2048x49x512_S512x512_S2048x49x512_2_1_01_0_n_n_wf

class Facts : Prop extends Facts₀ where

variable [Facts]
-- ==== Proof.Spec.lean ====
/-
  Windowed multi-head self-attention, as mathematics on the extended reals.

  One window is 49 tokens of 512 features. A fused projection sends each token to 1536 numbers, read
  as three blocks of 512 (queries, keys, values), each block as 16 heads of 32 lanes. For a head the
  score of token n against token m is the scaled inner product of n's query with m's key, plus a
  relative-position bias that depends on (head, n, m), plus a mask that depends on (n, m). Each row
  of scores is turned into weights by the usual max-shifted softmax, the weights average the values,
  the sixteen heads are laid side by side (feature 32·h + d is lane d of head h) and a second
  projection with a bias gives the window's 49 × 512 result.

  Every window is independent of the others: its result depends on its own tokens and on its own
  mask only. The whole array holds 2048 windows, and window b uses mask b mod 64.
-/
import Idealize.ShloMosaic.PureOps.Ideal
import Idealize.ShloMosaic.Lib.ValueIdx

noncomputable section

namespace Cert.WindowAttn

open Idealize.ShloMosaic Idealize.ShloMosaic.ValueIdx

/-- The value both programs start a row maximum from: the float pattern of minus infinity. -/
abbrev negInf : EReal := Ideal.ofBits .f32 0xFF800000#32

/-- The factor both programs scale a query-key product by: the float nearest to 1/√32. It is the
    same pattern on both sides, so its value is never needed. -/
abbrev scale : EReal := Ideal.ofBits .f32 0x3E3504F3#32

/-! ## One row of scores to one row of weights -/

/-- A row's maximum: the fold of max over the row from minus infinity, joined once more with minus
    infinity. -/
def rowMax (s : Fin 49 → EReal) : EReal := max negInf ((Finset.univ : Finset (Fin 49)).fold max negInf s)

/-- The shifted exponential of one entry of a row. -/
def rowExp (s : Fin 49 → EReal) (m : Fin 49) : EReal := Ideal.exp (s m - rowMax s)

/-- The weight of entry m of a row: its shifted exponential over the row's sum of them. -/
def softmax (s : Fin 49 → EReal) (m : Fin 49) : EReal := Ideal.div (rowExp s m) (∑ m' : Fin 49, rowExp s m')

/-! ## Columns of the fused projection -/

/-- Column 512·part + 32·h + d of the fused projection: lane d of head h of the queries (part 0),
    the keys (part 1) or the values (part 2). -/
def col (part : Fin 3) (h : Fin 16) (d : Fin 32) : Fin 1536 :=
  ⟨512 * part.val + 32 * h.val + d.val, by have := part.isLt; have := h.isLt; have := d.isLt; omega⟩

theorem col_val (part : Fin 3) (h : Fin 16) (d : Fin 32) : (col part h d).val = 512 * part.val + 32 * h.val + d.val := rfl

/-- The head a merged feature belongs to, and its lane there. -/
def headOf (e : Fin 512) : Fin 16 := ⟨e.val / 32, by have := e.isLt; omega⟩
def laneOf (e : Fin 512) : Fin 32 := ⟨e.val % 32, Nat.mod_lt _ (by decide)⟩

/-! ## One window -/

section Window

variable (x : Fin 49 → Fin 512 → EReal) (mk : Fin 49 → Fin 49 → EReal)
  (W : Fin 1536 → Fin 512 → EReal) (bq : Fin 1536 → EReal)
  (R : Fin 16 → Fin 49 → Fin 49 → EReal)
  (PW : Fin 512 → Fin 512 → EReal) (pb : Fin 512 → EReal)

/-- The fused projection of token n, column g. -/
def qkv (n : Fin 49) (g : Fin 1536) : EReal := (∑ e : Fin 512, x n e * W g e) + bq g

/-- The score of token n against token m in head h. -/
def score (h : Fin 16) (n m : Fin 49) : EReal :=
  ((∑ d : Fin 32, qkv x W bq n (col 0 h d) * qkv x W bq m (col 1 h d)) * scale + R h n m) + mk n m

/-- Lane d of head h's result for token n: the weighted average of the values. -/
def headOut (h : Fin 16) (n : Fin 49) (d : Fin 32) : EReal :=
  ∑ m : Fin 49, softmax (score x mk W bq R h n) m * qkv x W bq m (col 2 h d)

/-- The heads side by side. -/
def merged (n : Fin 49) (e : Fin 512) : EReal := headOut x mk W bq R (headOf e) n (laneOf e)

/-- The window's result: the second projection of the merged heads, plus its bias. -/
def window (n : Fin 49) (f : Fin 512) : EReal :=
  (∑ e : Fin 512, merged x mk W bq R n e * PW f e) + pb f

end Window

/-! ## The whole array -/

/-- Which of the 64 masks window b uses. -/
def maskOf (b : Fin 2048) : Fin 64 := ⟨b.val % 64, Nat.mod_lt _ (by decide)⟩

/-- The result array as one function of the argument arrays and of the relative-position bias
    array (16 × 49 × 49, itself a function of two further arguments that both programs compute the
    same way and that is never opened here). -/
def G (A0 : (⟨3, ![2048, 49, 512]⟩ : Shape).Idx → EReal) (A1 : (⟨3, ![64, 49, 49]⟩ : Shape).Idx → EReal)
    (A2 : (⟨2, ![1536, 512]⟩ : Shape).Idx → EReal) (A3 : (⟨1, ![1536]⟩ : Shape).Idx → EReal)
    (A4 : (⟨2, ![512, 512]⟩ : Shape).Idx → EReal) (A5 : (⟨1, ![512]⟩ : Shape).Idx → EReal)
    (RP : (⟨3, ![16, 49, 49]⟩ : Shape).Idx → EReal) : (⟨3, ![2048, 49, 512]⟩ : Shape).Idx → EReal :=
  fun i => window (fun n e => A0 (ix3 (i 0) n e)) (fun n m => A1 (ix3 (maskOf (i 0)) n m))
    (fun g e => A2 (ix2 g e)) (fun g => A3 (ix1 g)) (fun h n m => RP (ix3 h n m))
    (fun f e => A4 (ix2 f e)) (fun f => A5 (ix1 f)) (i 1) (i 2)

theorem G_ix3 (A0 : (⟨3, ![2048, 49, 512]⟩ : Shape).Idx → EReal) (A1 : (⟨3, ![64, 49, 49]⟩ : Shape).Idx → EReal)
    (A2 : (⟨2, ![1536, 512]⟩ : Shape).Idx → EReal) (A3 : (⟨1, ![1536]⟩ : Shape).Idx → EReal)
    (A4 : (⟨2, ![512, 512]⟩ : Shape).Idx → EReal) (A5 : (⟨1, ![512]⟩ : Shape).Idx → EReal)
    (RP : (⟨3, ![16, 49, 49]⟩ : Shape).Idx → EReal) (b : Fin 2048) (n : Fin 49) (f : Fin 512) :
    G A0 A1 A2 A3 A4 A5 RP (ix3 b n f)
      = window (fun n e => A0 (ix3 b n e)) (fun n m => A1 (ix3 (maskOf b) n m))
          (fun g e => A2 (ix2 g e)) (fun g => A3 (ix1 g)) (fun h n m => RP (ix3 h n m))
          (fun f e => A4 (ix2 f e)) (fun f => A5 (ix1 f)) n f := rfl

end Cert.WindowAttn

end
-- ==== Proof.HeadDef.lean ====
/-
  One attention head of the kernel's block, as a function of where its 32 lanes start.

  The kernel's body computes sixteen heads one after the other with the same operations; head h reads
  lanes 32·h … 32·h + 31 of the block's queries, keys and values (three 16 × 49 × 512 arrays cut out of
  the fused projection), the block's mask (16 × 49 × 49) and one 1 × 49 × 49 slab of the relative-position
  bias. `headFn off` is that computation with the first lane `off` left open, written with the
  program's own operations so that each of the sixteen printed heads is this function at its offset.

  Read at the ideal values and at one index (window j of the block, token n, lane d) it is the weighted
  average over the 49 tokens m of the value of token m at lane off + d, the weights being the softmax of
  the row of scores  (q_n · k_m) · scale + bias(n, m) + mask(j, n, m)  — `headFn_apply`.
-/
import proofs.«147765_j76562087018560_1_alg».proof.Proof.Gen.KernelIdeal
import proofs.«147765_j76562087018560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Head

open Cert.KernelIdeal Cert.KernelIdeal.Gen
open Idealize.ShloMosaic Idealize.ShloMosaic.ValueIdx Cert.WindowAttn

variable {F : FTy → Type} [FloatOps F]

/-- One head on a block: queries, keys and values are the 32 lanes from `off` of the three projected
    arrays; `msk` is the block's mask and `rp` the head's slab of the relative-position bias. -/
def headFn (off : Nat) (hs : S16x49x512.Slices ![0, 0, off] S16x49x32)
    (qs ks vs : FVec F S16x49x512 .f32) (msk : Vec F S16x49x49 .f32) (rp : Vec F S1x49x49 .f32) : FVec F S16x49x32 .f32 :=
  have q : FVec F S16x49x32 .f32 := extractStridedSlice S16x49x32 ![0, 0, off] qs hs
  have qb : FVec F S16x49x32 .bf16 := truncf .bf16 q bitsLt_bf16_f32
  have k : FVec F S16x49x32 .f32 := extractStridedSlice S16x49x32 ![0, 0, off] ks hs
  have kb : FVec F S16x49x32 .bf16 := truncf .bf16 k bitsLt_bf16_f32
  have v : FVec F S16x49x32 .f32 := extractStridedSlice S16x49x32 ![0, 0, off] vs hs
  have vb : FVec F S16x49x32 .bf16 := truncf .bf16 v bitsLt_bf16_f32
  have zero49 : FVec F S16x49x49 .f32 := constant S16x49x49 .f32 0x00000000#32
  have qk : FVec F S16x49x49 .f32 := matmul dot_S16x49x32_S16x49x32_S16x49x49_2_2_1_1_0_0 none qb kb zero49
  have c : F .f32 := Scalar.ofBits .f32 0x3E3504F3#32
  have cs : FVec F S16x49x49 .f32 := broadcast S16x49x49 c
  have scaled : FVec F S16x49x49 .f32 := mulf qk cs
  have r1 : FVec F S49x49 .f32 := shapeCast S49x49 rp shapeCasts_S1x49x49_S49x49
  have r2 : FVec F S1x49x49 .f32 := shapeCast S1x49x49 r1 shapeCasts_S49x49_S1x49x49
  have r3 : FVec F S16x49x49 .f32 := broadcastTo S16x49x49 r2 broadcasts_S1x49x49_S16x49x49
  have biased : FVec F S16x49x49 .f32 := addf scaled r3
  have s : FVec F S16x49x49 .f32 := addf biased msk
  have mx0 : FVec F S16x49 .f32 := multiReduction .maximumf [2] S16x49 s 0xFF800000#32 reduces_S16x49x49_S16x49 (.inl rfl) rfl
  have ninf : F .f32 := Scalar.ofBits .f32 0xFF800000#32
  have ninfs : FVec F S16x49 .f32 := broadcast S16x49 ninf
  have mx : FVec F S16x49 .f32 := maximumf ninfs mx0
  have mxc : FVec F S16x49x1 .f32 := shapeCast S16x49x1 mx shapeCasts_S16x49_S16x49x1
  have mxb : FVec F S16x49x49 .f32 := broadcastTo S16x49x49 mxc broadcasts_S16x49x1_S16x49x49
  have sh : FVec F S16x49x49 .f32 := subf s mxb
  have ex : FVec F S16x49x49 .f32 := exp sh
  have den : FVec F S16x49 .f32 := multiReduction .add [2] S16x49 ex 0x00000000#32 reduces_S16x49x49_S16x49 (.inl rfl) rfl
  have denc : FVec F S16x49x1 .f32 := shapeCast S16x49x1 den shapeCasts_S16x49_S16x49x1
  have denb : FVec F S16x49x49 .f32 := broadcastTo S16x49x49 denc broadcasts_S16x49x1_S16x49x49
  have w : FVec F S16x49x49 .f32 := divf ex denb
  have wb : FVec F S16x49x49 .bf16 := truncf .bf16 w bitsLt_bf16_f32
  have zero32 : FVec F S16x49x32 .f32 := constant S16x49x32 .f32 0x00000000#32
  have o : FVec F S16x49x32 .f32 := matmul dot_S16x49x49_S16x49x32_S16x49x32_2_1_1_2_0_0 none wb vb zero32
  o

/-- Feature `off + d` of a 512-wide row. -/
def lane (off : Nat) (hoff : off + 32 ≤ 512) (d : Fin 32) : Fin 512 := ⟨off + d.val, by have := d.isLt; omega⟩

end Cert.KernelIdeal.Head

end
-- ==== Proof.Pieces.lean ====
/-
  The kernel's body, head by head.

  The printed body computes its sixteen heads one after another; the text of head h is the text of
  every other head with the lane offset 32·h in place of theirs. Here each printed head is identified
  with the one function `headFn` at its offset (by unfolding: the two sides are the same operations
  in the same order), the sixteen 1 × 49 × 49 slabs of the relative-position bias the body loads are
  gathered into one selector, and the block the body leaves in the output buffer is restated as the
  output projection of the sixteen `headFn` results laid side by side.
-/
import proofs.«147765_j76562087018560_1_alg».proof.Proof.Gen.KernelIdeal.Frame
import proofs.«147765_j76562087018560_1_alg».proof.Proof.HeadDef
import Idealize.ShloMosaic.Lib.Pipeline.Value

set_option maxRecDepth 16384

noncomputable section

namespace Cert.KernelIdeal.Pieces

open Cert.KernelIdeal Cert.KernelIdeal.Gen Cert.KernelIdeal.Head
open Idealize.ShloMosaic Idealize.ShloMosaic.ValueIdx

variable {F : FTy → Type} [FloatOps F]

section Heads

variable (x : Vec F S16x49x512 .f32) (w : Vec F S512x1536 .f32) (b : Vec F S1x1536 .f32)
  (q k v : FVec F S16x49x512 .f32) (msk : Vec F S16x49x49 .f32) (rp : Vec F S1x49x49 .f32)

/-! Each printed head is `headFn` at its offset: the same operations in the same order. -/
theorem piece0 : k0_pay10 (k0_pay7 x w b) (k0_pay8 x w b msk rp) (k0_pay9 x w b msk rp) = headFn 0 slices_S16x49x512_o0_0_0_S16x49x32 (k0_pay4 x w b) (k0_pay5 x w b) (k0_pay6 x w b) msk rp := rfl
theorem piece1 : k0_pay11 q k v msk rp = headFn 32 slices_S16x49x512_o0_0_32_S16x49x32 q k v msk rp := rfl
theorem piece2 : k0_pay15 msk (k0_pay12 v) (k0_pay13 q k) (k0_pay14 rp) = headFn 64 slices_S16x49x512_o0_0_64_S16x49x32 q k v msk rp := rfl
theorem piece3 : k0_pay16 q k v msk rp = headFn 96 slices_S16x49x512_o0_0_96_S16x49x32 q k v msk rp := rfl
theorem piece4 : k0_pay19 v msk (k0_pay17 q) (k0_pay18 k) rp = headFn 128 slices_S16x49x512_o0_0_128_S16x49x32 q k v msk rp := rfl
theorem piece5 : k0_pay23 (k0_pay20 v) (k0_pay21 q k msk rp) (k0_pay22 q k msk rp) = headFn 160 slices_S16x49x512_o0_0_160_S16x49x32 q k v msk rp := rfl
theorem piece6 : k0_pay24 q k v msk rp = headFn 192 slices_S16x49x512_o0_0_192_S16x49x32 q k v msk rp := rfl
theorem piece7 : k0_pay27 msk (k0_pay25 v) (k0_pay26 q k) rp = headFn 224 slices_S16x49x512_o0_0_224_S16x49x32 q k v msk rp := rfl
theorem piece8 : k0_pay30 (k0_pay28 v) (k0_pay29 q k msk rp) (constant S16x49x32 .f32 0x00000000#32) = headFn 256 slices_S16x49x512_o0_0_256_S16x49x32 q k v msk rp := rfl
theorem piece9 : k0_pay31 q k v msk rp = headFn 288 slices_S16x49x512_o0_0_288_S16x49x32 q k v msk rp := rfl
theorem piece10 : k0_pay35 (k0_pay32 v) (k0_pay33 q k msk rp) (k0_pay34 q k msk rp) = headFn 320 slices_S16x49x512_o0_0_320_S16x49x32 q k v msk rp := rfl
theorem piece11 : k0_pay36 q k v msk rp = headFn 352 slices_S16x49x512_o0_0_352_S16x49x32 q k v msk rp := rfl
theorem piece12 : k0_pay39 msk (k0_pay37 v) (k0_pay38 q k) rp = headFn 384 slices_S16x49x512_o0_0_384_S16x49x32 q k v msk rp := rfl
theorem piece13 : k0_pay43 (k0_pay40 v) (k0_pay41 q k msk rp) (k0_pay42 q k msk rp) = headFn 416 slices_S16x49x512_o0_0_416_S16x49x32 q k v msk rp := rfl
theorem piece14 : k0_pay44 q k v msk rp = headFn 448 slices_S16x49x512_o0_0_448_S16x49x32 q k v msk rp := rfl
theorem piece15 : k0_pay1 msk (k0_pay45 v) (k0_pay46 q k) (k0_pay47 rp) = headFn 480 slices_S16x49x512_o0_0_480_S16x49x32 q k v msk rp := rfl

end Heads

/-! ## The sixteen heads as one family -/

/-- Head h's 32 lanes are a slice of a 512-wide array: the program's own facts, by head. -/
theorem slicesAt : ∀ h : Fin 16, S16x49x512.Slices ![0, 0, 32 * h.val] S16x49x32
  | ⟨0, _⟩ => slices_S16x49x512_o0_0_0_S16x49x32
  | ⟨1, _⟩ => slices_S16x49x512_o0_0_32_S16x49x32
  | ⟨2, _⟩ => slices_S16x49x512_o0_0_64_S16x49x32
  | ⟨3, _⟩ => slices_S16x49x512_o0_0_96_S16x49x32
  | ⟨4, _⟩ => slices_S16x49x512_o0_0_128_S16x49x32
  | ⟨5, _⟩ => slices_S16x49x512_o0_0_160_S16x49x32
  | ⟨6, _⟩ => slices_S16x49x512_o0_0_192_S16x49x32
  | ⟨7, _⟩ => slices_S16x49x512_o0_0_224_S16x49x32
  | ⟨8, _⟩ => slices_S16x49x512_o0_0_256_S16x49x32
  | ⟨9, _⟩ => slices_S16x49x512_o0_0_288_S16x49x32
  | ⟨10, _⟩ => slices_S16x49x512_o0_0_320_S16x49x32
  | ⟨11, _⟩ => slices_S16x49x512_o0_0_352_S16x49x32
  | ⟨12, _⟩ => slices_S16x49x512_o0_0_384_S16x49x32
  | ⟨13, _⟩ => slices_S16x49x512_o0_0_416_S16x49x32
  | ⟨14, _⟩ => slices_S16x49x512_o0_0_448_S16x49x32
  | ⟨15, _⟩ => slices_S16x49x512_o0_0_480_S16x49x32
  | ⟨_ + 16, h⟩ => absurd h (by omega)

theorem hz3 : (![0, 0, 0] : Fin 3 → Nat) = fun _ => 0 := funext fun a => by fin_cases a <;> rfl
theorem hz2 : (![0, 0] : Fin 2 → Nat) = fun _ => 0 := funext fun a => by fin_cases a <;> rfl

/-- Slab h of the relative-position bias, as the body loads it: rows [h, h + 1) of the 16 × 49 × 49 array. -/
def slab (x5 : Vec F S16x49x49 .f32) : Fin 16 → Vec F S1x49x49 .f32 :=
  ![View.ld x5 r0_4, View.ld x5 r0_5, View.ld x5 r0_6, View.ld x5 r0_7, View.ld x5 r0_8, View.ld x5 r0_9, View.ld x5 r0_10, View.ld x5 r0_11, View.ld x5 r0_12, View.ld x5 r0_13, View.ld x5 r0_14, View.ld x5 r0_15, View.ld x5 r0_16, View.ld x5 r0_17, View.ld x5 r0_18, View.ld x5 r0_19]

/-- Entry (0, n, m) of slab h is entry (h, n, m) of the array. -/
theorem slab_apply (x5 : Vec F S16x49x49 .f32) (n m : Fin 49) : ∀ h : Fin 16, slab x5 h (ix3 (0 : Fin 1) n m) = x5 (ix3 h n m)
  | ⟨0, _⟩ => by
    show x5 ((r0_4).idx (ix3 (0 : Fin 1) n m)) = x5 (ix3 (⟨0, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨1, _⟩ => by
    show x5 ((r0_5).idx (ix3 (0 : Fin 1) n m)) = x5 (ix3 (⟨1, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨2, _⟩ => by
    show x5 ((r0_6).idx (ix3 (0 : Fin 1) n m)) = x5 (ix3 (⟨2, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨3, _⟩ => by
    show x5 ((r0_7).idx (ix3 (0 : Fin 1) n m)) = x5 (ix3 (⟨3, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨4, _⟩ => by
    show x5 ((r0_8).idx (ix3 (0 : Fin 1) n m)) = x5 (ix3 (⟨4, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨5, _⟩ => by
    show x5 ((r0_9).idx (ix3 (0 : Fin 1) n m)) = x5 (ix3 (⟨5, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨6, _⟩ => by
    show x5 ((r0_10).idx (ix3 (0 : Fin 1) n m)) = x5 (ix3 (⟨6, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨7, _⟩ => by
    show x5 ((r0_11).idx (ix3 (0 : Fin 1) n m)) = x5 (ix3 (⟨7, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨8, _⟩ => by
    show x5 ((r0_12).idx (ix3 (0 : Fin 1) n m)) = x5 (ix3 (⟨8, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨9, _⟩ => by
    show x5 ((r0_13).idx (ix3 (0 : Fin 1) n m)) = x5 (ix3 (⟨9, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨10, _⟩ => by
    show x5 ((r0_14).idx (ix3 (0 : Fin 1) n m)) = x5 (ix3 (⟨10, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨11, _⟩ => by
    show x5 ((r0_15).idx (ix3 (0 : Fin 1) n m)) = x5 (ix3 (⟨11, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨12, _⟩ => by
    show x5 ((r0_16).idx (ix3 (0 : Fin 1) n m)) = x5 (ix3 (⟨12, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨13, _⟩ => by
    show x5 ((r0_17).idx (ix3 (0 : Fin 1) n m)) = x5 (ix3 (⟨13, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨14, _⟩ => by
    show x5 ((r0_18).idx (ix3 (0 : Fin 1) n m)) = x5 (ix3 (⟨14, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨15, _⟩ => by
    show x5 ((r0_19).idx (ix3 (0 : Fin 1) n m)) = x5 (ix3 (⟨15, by decide⟩ : Fin 16) n m)
    exact congrArg x5 (funext fun a => Fin.ext (by
      match a with
      | ⟨0, _⟩ => rfl
      | ⟨1, _⟩ => show 0 + 1 * n.val = n.val; omega
      | ⟨2, _⟩ => show 0 + 1 * m.val = m.val; omega))
  | ⟨_ + 16, h⟩ => absurd h (by omega)

/-- Head h of the block: `headFn` at lane offset 32·h over the block's queries, keys and values (the three column
    ranges of the fused projection of the block's tokens), the block's mask and slab h of the bias. -/
def heads (x0 : Vec F S16x49x512 .f32) (x1 : Vec F S512x1536 .f32) (x2 : Vec F S1x1536 .f32) (x5 : Vec F S16x49x49 .f32)
    (x6 : Vec F S16x49x49 .f32) (h : Fin 16) : FVec F S16x49x32 .f32 :=
  headFn (32 * h.val) (slicesAt h) (k0_pay4 x0 x1 x2) (k0_pay5 x0 x1 x2) (k0_pay6 x0 x1 x2) x6 (slab x5 h)

/-- What the body leaves in the output buffer: the output projection of the sixteen heads side by side. -/
theorem out0_7_eq (x0 : Vec F S16x49x512 .f32) (x1 : Vec F S512x1536 .f32) (x2 : Vec F S1x1536 .f32) (x3 : Vec F S512x512 .f32)
    (x4 : Vec F S1x512 .f32) (x5 : Vec F S16x49x49 .f32) (x6 : Vec F S16x49x49 .f32) :
    out0_7 x0 x1 x2 x3 x4 x5 x6
      = k0_pay2 (concatenate S16x49x512 2 [⟨S16x49x32, heads x0 x1 x2 x5 x6 0⟩, ⟨S16x49x32, heads x0 x1 x2 x5 x6 1⟩, ⟨S16x49x32, heads x0 x1 x2 x5 x6 2⟩, ⟨S16x49x32, heads x0 x1 x2 x5 x6 3⟩, ⟨S16x49x32, heads x0 x1 x2 x5 x6 4⟩, ⟨S16x49x32, heads x0 x1 x2 x5 x6 5⟩, ⟨S16x49x32, heads x0 x1 x2 x5 x6 6⟩, ⟨S16x49x32, heads x0 x1 x2 x5 x6 7⟩, ⟨S16x49x32, heads x0 x1 x2 x5 x6 8⟩, ⟨S16x49x32, heads x0 x1 x2 x5 x6 9⟩, ⟨S16x49x32, heads x0 x1 x2 x5 x6 10⟩, ⟨S16x49x32, heads x0 x1 x2 x5 x6 11⟩, ⟨S16x49x32, heads x0 x1 x2 x5 x6 12⟩, ⟨S16x49x32, heads x0 x1 x2 x5 x6 13⟩, ⟨S16x49x32, heads x0 x1 x2 x5 x6 14⟩, ⟨S16x49x32, heads x0 x1 x2 x5 x6 15⟩]
          concatenates_S16x49x32_S16x49x32_S16x49x32_S16x49x32_S16x49x32_S16x49x32_S16x49x32_S16x49x32_S16x49x32_S16x49x32_S16x49x32_S16x49x32_S16x49x32_S16x49x32_S16x49x32_S16x49x32_S16x49x512_d2) x3 x4 := by
  unfold out0_7
  rw [View.canon_unit_zero hz3]
  rw [View.ld_unit_zero (S := S16x49x512) hz3 _ x0, View.ld_unit_zero (S := S512x1536) hz2 _ x1,
    View.ld_unit_zero (S := S1x1536) hz2 _ x2, View.ld_unit_zero (S := S16x49x49) hz3 _ x6,
    View.ld_unit_zero (S := S512x512) hz2 _ x3, View.ld_unit_zero (S := S1x512) hz2 _ x4]
  rw [piece0, piece1, piece2, piece3, piece4, piece5, piece6, piece7, piece8, piece9, piece10, piece11, piece12, piece13, piece14, piece15]
  rfl

end Cert.KernelIdeal.Pieces

end
-- ==== Proof.Proj.lean ====
/-
  The two projections of the kernel's block and the laying of the sixteen heads side by side, each
  read at the ideal values and at one index.

  The block's fused projection is a [784, 512] × [512, 1536] product (784 = 16 windows × 49 tokens, laid
  row after row) plus a bias row, cast back to [16, 49, 1536]: entry (j, n, g) is the sum over the 512
  input features e of x(j, n, e) · w(e, g), plus b(g). Queries, keys and values are its column ranges
  [0, 512), [512, 1024) and [1024, 1536). The sixteen head results, each [16, 49, 32], are concatenated
  along the last axis: feature e of the merged array is lane e mod 32 of head e div 32. The output
  projection is the same kind of product over the merged 512 features.
-/
import proofs.«147765_j76562087018560_1_alg».proof.Proof.Gen.KernelIdeal.Skeleton
import proofs.«147765_j76562087018560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Proj

open Cert.KernelIdeal Cert.KernelIdeal.Gen
open Idealize.ShloMosaic Idealize.ShloMosaic.ValueIdx Cert.WindowAttn

/-- Column `g` of a 1536-wide row from a 512-wide part: `base + e`. -/
def part (base : Nat) (hb : base + 512 ≤ 1536) (e : Fin 512) : Fin 1536 := ⟨base + e.val, by have := e.isLt; omega⟩

/-! ## Rows of the flattened block -/

/-- Row 49·j + n of the 784-row matrix: token n of window j. -/
def row (j : Fin 16) (n : Fin 49) : Fin 784 := ⟨49 * j.val + n.val, by have := j.isLt; have := n.isLt; omega⟩

/-- The windows laid row after row: row 49·j + n of the matrix is (window j, token n) of the array. Both
    positions in row-major order are (49·j + n)·c + e. -/
theorem flatten_apply {α : Type} {c : Nat} (v : (⟨3, ![16, 49, c]⟩ : Shape).Idx → α)
    (h : (⟨3, ![16, 49, c]⟩ : Shape).ShapeCasts ⟨2, ![784, c]⟩) (j : Fin 16) (n : Fin 49) (e : Fin c) :
    shapeCast ⟨2, ![784, c]⟩ v h (ix2 (row j n) e) = v (ix3 j n e) :=
  shapeCast_apply v h _ _ (by
    rw [Shape.rowMajor_val_three, Shape.rowMajor_val_two]
    show (j.val * 49 + n.val) * c + e.val = (49 * j.val + n.val) * c + e.val
    rw [Nat.mul_comm j.val 49])

/-- And back: (window j, token n) of the array is row 49·j + n of the matrix. -/
theorem unflatten_apply {α : Type} {c : Nat} (v : (⟨2, ![784, c]⟩ : Shape).Idx → α)
    (h : (⟨2, ![784, c]⟩ : Shape).ShapeCasts ⟨3, ![16, 49, c]⟩) (j : Fin 16) (n : Fin 49) (e : Fin c) :
    shapeCast ⟨3, ![16, 49, c]⟩ v h (ix3 j n e) = v (ix2 (row j n) e) :=
  shapeCast_apply v h _ _ (by
    rw [Shape.rowMajor_val_three, Shape.rowMajor_val_two]
    show (49 * j.val + n.val) * c + e.val = (j.val * 49 + n.val) * c + e.val
    rw [Nat.mul_comm j.val 49])

/-- A rank-3 array cut along its last axis from `o` reads, at (a, b, e), the source at (a, b, g) with g = o + e. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (e : Fin m) (g : Fin n2) (hg : g.val = o + e.val) :
    extractStridedSlice ⟨3, ![n0, n1, m]⟩ ![0, 0, o] X h (ix3 a b e) = X (ix3 a b g) :=
  extractStridedSlice_apply _ _ _ _ _ (fun ax => by
    match ax with
    | ⟨0, _⟩ => exact (Nat.zero_add _).symm
    | ⟨1, _⟩ => exact (Nat.zero_add _).symm
    | ⟨2, _⟩ => exact hg)

/-! ## The two products read at an index

For a plain [rows, 512] × [512, cols] product the left operand is read at (row, k) and the right one at (k, column):
one lemma per operand axis, then the sum over the one-axis contraction index re-indexed by its coordinate. -/

theorem lhs_qkv_0 (i : S784x1536.Idx) (q : dot_S784x512_S512x1536_S784x1536_1_0_0_1_n_n.contr.Idx) :
    (dot_S784x512_S512x1536_S784x1536_1_0_0_1_n_n.lhsIdx i q 0).val = (i 0).val := by
  unfold DotDims.lhsIdx
  rw [dif_neg (show ¬(0 : Fin S784x512.rank) ∈ dot_S784x512_S512x1536_S784x1536_1_0_0_1_n_n.lhsBatch by decide), dif_pos (show (0 : Fin S784x512.rank) ∈ dot_S784x512_S512x1536_S784x1536_1_0_0_1_n_n.lhsNonContracting by decide)]
  rfl
theorem lhs_qkv_1 (i : S784x1536.Idx) (q : dot_S784x512_S512x1536_S784x1536_1_0_0_1_n_n.contr.Idx) :
    (dot_S784x512_S512x1536_S784x1536_1_0_0_1_n_n.lhsIdx i q 1).val = (q ⟨0, by decide⟩).val :=
  dot_S784x512_S512x1536_S784x1536_1_0_0_1_n_n.lhsIdx_val_of_single rfl i q
theorem rhs_qkv_0 (i : S784x1536.Idx) (q : dot_S784x512_S512x1536_S784x1536_1_0_0_1_n_n.contr.Idx) :
    (dot_S784x512_S512x1536_S784x1536_1_0_0_1_n_n.rhsIdx i q 0).val = (q ⟨0, by decide⟩).val :=
  dot_S784x512_S512x1536_S784x1536_1_0_0_1_n_n.rhsIdx_val_of_single rfl i q
theorem rhs_qkv_1 (i : S784x1536.Idx) (q : dot_S784x512_S512x1536_S784x1536_1_0_0_1_n_n.contr.Idx) :
    (dot_S784x512_S512x1536_S784x1536_1_0_0_1_n_n.rhsIdx i q 1).val = (i 1).val := by
  unfold DotDims.rhsIdx
  rw [dif_neg (show ¬(1 : Fin S512x1536.rank) ∈ dot_S784x512_S512x1536_S784x1536_1_0_0_1_n_n.rhsBatch by decide), dif_pos (show (1 : Fin S512x1536.rank) ∈ dot_S784x512_S512x1536_S784x1536_1_0_0_1_n_n.rhsNonContracting by decide)]
  rfl

/-- The product into a zero accumulator, read at (row r, column c): the sum over the 512 contracted features k of
    the left operand at (r, k) times the right operand at (k, c). -/
theorem mm_qkv_apply (A : FVec Ideal S784x512 .bf16) (B : FVec Ideal S512x1536 .bf16) (r : Fin 784) (c : Fin 1536) :
    matmul dot_S784x512_S512x1536_S784x1536_1_0_0_1_n_n none A B (constant (F := Ideal) S784x1536 .f32 0x00000000#32) (ix2 r c)
      = ∑ k : Fin 512, A (ix2 r k) * B (ix2 k c) := by
  refine (Ideal.matmul_constant_zero_apply dot_S784x512_S512x1536_S784x1536_1_0_0_1_n_n none A B (ix2 r c)).trans ?_
  rw [← Equiv.sum_comp (ValueIdx.contrEquiv1 dot_S784x512_S512x1536_S784x1536_1_0_0_1_n_n 512 rfl rfl).symm]
  refine Finset.sum_congr rfl fun k _ => ?_
  have hk := ValueIdx.contrEquiv1_symm_val dot_S784x512_S512x1536_S784x1536_1_0_0_1_n_n 512 rfl rfl k
  have el : dot_S784x512_S512x1536_S784x1536_1_0_0_1_n_n.lhsIdx (ix2 r c) ((ValueIdx.contrEquiv1 dot_S784x512_S512x1536_S784x1536_1_0_0_1_n_n 512 rfl rfl).symm k) = ix2 r k := funext fun a => Fin.ext (by
    match a with
    | ⟨0, _⟩ => exact lhs_qkv_0 _ _
    | ⟨1, _⟩ => exact (lhs_qkv_1 _ _).trans hk)
  have er : dot_S784x512_S512x1536_S784x1536_1_0_0_1_n_n.rhsIdx (ix2 r c) ((ValueIdx.contrEquiv1 dot_S784x512_S512x1536_S784x1536_1_0_0_1_n_n 512 rfl rfl).symm k) = ix2 k c := funext fun a => Fin.ext (by
    match a with
    | ⟨0, _⟩ => exact (rhs_qkv_0 _ _).trans hk
    | ⟨1, _⟩ => exact rhs_qkv_1 _ _)
  exact congrArg₂ (· * ·) (congrArg A el) (congrArg B er)

theorem lhs_out_0 (i : S784x512.Idx) (q : dot_S784x512_S512x512_S784x512_1_0_0_1_n_n.contr.Idx) :
    (dot_S784x512_S512x512_S784x512_1_0_0_1_n_n.lhsIdx i q 0).val = (i 0).val := by
  unfold DotDims.lhsIdx
  rw [dif_neg (show ¬(0 : Fin S784x512.rank) ∈ dot_S784x512_S512x512_S784x512_1_0_0_1_n_n.lhsBatch by decide), dif_pos (show (0 : Fin S784x512.rank) ∈ dot_S784x512_S512x512_S784x512_1_0_0_1_n_n.lhsNonContracting by decide)]
  rfl
theorem lhs_out_1 (i : S784x512.Idx) (q : dot_S784x512_S512x512_S784x512_1_0_0_1_n_n.contr.Idx) :
    (dot_S784x512_S512x512_S784x512_1_0_0_1_n_n.lhsIdx i q 1).val = (q ⟨0, by decide⟩).val :=
  dot_S784x512_S512x512_S784x512_1_0_0_1_n_n.lhsIdx_val_of_single rfl i q
theorem rhs_out_0 (i : S784x512.Idx) (q : dot_S784x512_S512x512_S784x512_1_0_0_1_n_n.contr.Idx) :
    (dot_S784x512_S512x512_S784x512_1_0_0_1_n_n.rhsIdx i q 0).val = (q ⟨0, by decide⟩).val :=
  dot_S784x512_S512x512_S784x512_1_0_0_1_n_n.rhsIdx_val_of_single rfl i q
theorem rhs_out_1 (i : S784x512.Idx) (q : dot_S784x512_S512x512_S784x512_1_0_0_1_n_n.contr.Idx) :
    (dot_S784x512_S512x512_S784x512_1_0_0_1_n_n.rhsIdx i q 1).val = (i 1).val := by
  unfold DotDims.rhsIdx
  rw [dif_neg (show ¬(1 : Fin S512x512.rank) ∈ dot_S784x512_S512x512_S784x512_1_0_0_1_n_n.rhsBatch by decide), dif_pos (show (1 : Fin S512x512.rank) ∈ dot_S784x512_S512x512_S784x512_1_0_0_1_n_n.rhsNonContracting by decide)]
  rfl

/-- The product into a zero accumulator, read at (row r, column c): the sum over the 512 contracted features k of
    the left operand at (r, k) times the right operand at (k, c). -/
theorem mm_out_apply (A : FVec Ideal S784x512 .bf16) (B : FVec Ideal S512x512 .bf16) (r : Fin 784) (c : Fin 512) :
    matmul dot_S784x512_S512x512_S784x512_1_0_0_1_n_n none A B (constant (F := Ideal) S784x512 .f32 0x00000000#32) (ix2 r c)
      = ∑ k : Fin 512, A (ix2 r k) * B (ix2 k c) := by
  refine (Ideal.matmul_constant_zero_apply dot_S784x512_S512x512_S784x512_1_0_0_1_n_n none A B (ix2 r c)).trans ?_
  rw [← Equiv.sum_comp (ValueIdx.contrEquiv1 dot_S784x512_S512x512_S784x512_1_0_0_1_n_n 512 rfl rfl).symm]
  refine Finset.sum_congr rfl fun k _ => ?_
  have hk := ValueIdx.contrEquiv1_symm_val dot_S784x512_S512x512_S784x512_1_0_0_1_n_n 512 rfl rfl k
  have el : dot_S784x512_S512x512_S784x512_1_0_0_1_n_n.lhsIdx (ix2 r c) ((ValueIdx.contrEquiv1 dot_S784x512_S512x512_S784x512_1_0_0_1_n_n 512 rfl rfl).symm k) = ix2 r k := funext fun a => Fin.ext (by
    match a with
    | ⟨0, _⟩ => exact lhs_out_0 _ _
    | ⟨1, _⟩ => exact (lhs_out_1 _ _).trans hk)
  have er : dot_S784x512_S512x512_S784x512_1_0_0_1_n_n.rhsIdx (ix2 r c) ((ValueIdx.contrEquiv1 dot_S784x512_S512x512_S784x512_1_0_0_1_n_n 512 rfl rfl).symm k) = ix2 k c := funext fun a => Fin.ext (by
    match a with
    | ⟨0, _⟩ => exact (rhs_out_0 _ _).trans hk
    | ⟨1, _⟩ => exact rhs_out_1 _ _)
  exact congrArg₂ (· * ·) (congrArg A el) (congrArg B er)

/-! ## The fused projection and its three column ranges -/

/-- The fused projection at (window j, token n, column g). -/
theorem pay3_apply (x : Vec Ideal S16x49x512 .f32) (w : Vec Ideal S512x1536 .f32) (b : Vec Ideal S1x1536 .f32)
    (j : Fin 16) (n : Fin 49) (g : Fin 1536) :
    k0_pay3 (F := Ideal) x w b (ix3 j n g) = (∑ e : Fin 512, x (ix3 j n e) * w (ix2 e g)) + b (ix2 (0 : Fin 1) g) := by
  unfold k0_pay3
  -- entry (j, n, g) of the result is entry (49·j + n, g) of the matrix: a product entry plus a bias entry
  refine (unflatten_apply _ _ j n g).trans ?_
  refine (addf_apply _ _ _).trans ?_
  refine congrArg₂ (· + ·) ?_ ?_
  · refine (mm_qkv_apply _ _ (row j n) g).trans ?_
    refine Finset.sum_congr rfl fun k _ => ?_
    refine congrArg₂ (· * ·) ?_ ?_
    · -- the left operand's row 49·j + n is token n of window j; the narrowing is the identity on the ideal values
      exact (flatten_apply _ _ j n k).trans (truncf_apply (ψ := .bf16) x bitsLt_bf16_f32 _)
    · exact (truncf_apply (ψ := .bf16) _ bitsLt_bf16_f32 _).trans (congrFun (shapeCast_self w _) (ix2 k g))
  · -- the bias row, the same for every row of the matrix
    refine (broadcastTo_1b_ab_apply _ _ (row j n) g).trans ?_
    exact congrFun (shapeCast_self b _) _

/-- Queries, keys, values: the three column ranges of the fused projection. -/
theorem pay4_apply (x : Vec Ideal S16x49x512 .f32) (w : Vec Ideal S512x1536 .f32) (b : Vec Ideal S1x1536 .f32)
    (j : Fin 16) (n : Fin 49) (e : Fin 512) :
    k0_pay4 (F := Ideal) x w b (ix3 j n e) = k0_pay3 (F := Ideal) x w b (ix3 j n (part 0 (by decide) e)) := by
  unfold k0_pay4
  exact slice3_axis2_apply 0 _ _ j n e (part 0 (by decide) e) rfl
theorem pay5_apply (x : Vec Ideal S16x49x512 .f32) (w : Vec Ideal S512x1536 .f32) (b : Vec Ideal S1x1536 .f32)
    (j : Fin 16) (n : Fin 49) (e : Fin 512) :
    k0_pay5 (F := Ideal) x w b (ix3 j n e) = k0_pay3 (F := Ideal) x w b (ix3 j n (part 512 (by decide) e)) := by
  unfold k0_pay5
  exact slice3_axis2_apply 512 _ _ j n e (part 512 (by decide) e) rfl
theorem pay6_apply (x : Vec Ideal S16x49x512 .f32) (w : Vec Ideal S512x1536 .f32) (b : Vec Ideal S1x1536 .f32)
    (j : Fin 16) (n : Fin 49) (e : Fin 512) :
    k0_pay6 (F := Ideal) x w b (ix3 j n e) = k0_pay3 (F := Ideal) x w b (ix3 j n (part 1024 (by decide) e)) := by
  unfold k0_pay6
  exact slice3_axis2_apply 1024 _ _ j n e (part 1024 (by decide) e) rfl

/-! ## The output projection -/

/-- The output projection at (window j, token n, feature f). -/
theorem pay2_apply (a : FVec Ideal S16x49x512 .f32) (w : Vec Ideal S512x512 .f32) (b : Vec Ideal S1x512 .f32)
    (j : Fin 16) (n : Fin 49) (f : Fin 512) :
    k0_pay2 (F := Ideal) a w b (ix3 j n f) = (∑ e : Fin 512, a (ix3 j n e) * w (ix2 e f)) + b (ix2 (0 : Fin 1) f) := by
  unfold k0_pay2
  refine (unflatten_apply _ _ j n f).trans ?_
  refine (addf_apply _ _ _).trans ?_
  refine congrArg₂ (· + ·) ?_ ?_
  · refine (mm_out_apply _ _ (row j n) f).trans ?_
    refine Finset.sum_congr rfl fun k _ => ?_
    refine congrArg₂ (· * ·) ?_ ?_
    · exact (truncf_apply (ψ := .bf16) _ bitsLt_bf16_f32 _).trans (flatten_apply a _ j n k)
    · exact (truncf_apply (ψ := .bf16) _ bitsLt_bf16_f32 _).trans (congrFun (shapeCast_self w _) (ix2 k f))
  · refine (broadcastTo_1b_ab_apply _ _ (row j n) f).trans ?_
    exact congrFun (shapeCast_self b _) _

/-! ## The heads side by side -/

/-- The sixteen pieces are all [16, 49, 32], so the `k` pieces before piece `k` take up 32·k along the last axis. -/
theorem pre16 (p : Fin 16 → FVec Ideal S16x49x32 .f32) (k : Nat) (hk : k < 16) :
    (((([⟨S16x49x32, p 0⟩, ⟨S16x49x32, p 1⟩, ⟨S16x49x32, p 2⟩, ⟨S16x49x32, p 3⟩, ⟨S16x49x32, p 4⟩, ⟨S16x49x32, p 5⟩, ⟨S16x49x32, p 6⟩, ⟨S16x49x32, p 7⟩, ⟨S16x49x32, p 8⟩, ⟨S16x49x32, p 9⟩, ⟨S16x49x32, p 10⟩, ⟨S16x49x32, p 11⟩, ⟨S16x49x32, p 12⟩, ⟨S16x49x32, p 13⟩, ⟨S16x49x32, p 14⟩, ⟨S16x49x32, p 15⟩] : List ((s : Shape) × (s.Idx → Ideal .f32))).take k).map (·.1)).map fun s => if h : s.rank = S16x49x512.rank then s.size ((2 : Fin S16x49x512.rank).cast h.symm) else 0).sum = 32 * k := by
  have h1 : ([⟨S16x49x32, p 0⟩, ⟨S16x49x32, p 1⟩, ⟨S16x49x32, p 2⟩, ⟨S16x49x32, p 3⟩, ⟨S16x49x32, p 4⟩, ⟨S16x49x32, p 5⟩, ⟨S16x49x32, p 6⟩, ⟨S16x49x32, p 7⟩, ⟨S16x49x32, p 8⟩, ⟨S16x49x32, p 9⟩, ⟨S16x49x32, p 10⟩, ⟨S16x49x32, p 11⟩, ⟨S16x49x32, p 12⟩, ⟨S16x49x32, p 13⟩, ⟨S16x49x32, p 14⟩, ⟨S16x49x32, p 15⟩] : List ((s : Shape) × (s.Idx → Ideal .f32))).map (·.1) = List.replicate 16 S16x49x32 := rfl
  rw [List.map_take, h1, List.take_replicate, List.map_replicate, List.sum_replicate_nat, Nat.min_eq_left (Nat.le_of_lt hk)]
  exact Nat.mul_comm k 32

/-- Feature e lies in piece k = e div 32, which starts at 32·k, at lane e mod 32 there: the concatenation reads that
    piece at that lane. The piece is named for a literal k. -/
theorem concat16_at (p : Fin 16 → FVec Ideal S16x49x32 .f32)
    (hc : Shape.Concatenates (([⟨S16x49x32, p 0⟩, ⟨S16x49x32, p 1⟩, ⟨S16x49x32, p 2⟩, ⟨S16x49x32, p 3⟩, ⟨S16x49x32, p 4⟩, ⟨S16x49x32, p 5⟩, ⟨S16x49x32, p 6⟩, ⟨S16x49x32, p 7⟩, ⟨S16x49x32, p 8⟩, ⟨S16x49x32, p 9⟩, ⟨S16x49x32, p 10⟩, ⟨S16x49x32, p 11⟩, ⟨S16x49x32, p 12⟩, ⟨S16x49x32, p 13⟩, ⟨S16x49x32, p 14⟩, ⟨S16x49x32, p 15⟩] : List ((s : Shape) × (s.Idx → Ideal .f32))).map (·.1)) S16x49x512 2)
    (j : Fin 16) (n : Fin 49) (e : Fin 512) (k : Nat) (hk : k < 16) (hke : (headOf e).val = k)
    (hxk : ([⟨S16x49x32, p 0⟩, ⟨S16x49x32, p 1⟩, ⟨S16x49x32, p 2⟩, ⟨S16x49x32, p 3⟩, ⟨S16x49x32, p 4⟩, ⟨S16x49x32, p 5⟩, ⟨S16x49x32, p 6⟩, ⟨S16x49x32, p 7⟩, ⟨S16x49x32, p 8⟩, ⟨S16x49x32, p 9⟩, ⟨S16x49x32, p 10⟩, ⟨S16x49x32, p 11⟩, ⟨S16x49x32, p 12⟩, ⟨S16x49x32, p 13⟩, ⟨S16x49x32, p 14⟩, ⟨S16x49x32, p 15⟩] : List ((s : Shape) × (s.Idx → Ideal .f32)))[k]'hk = ⟨S16x49x32, p ⟨k, hk⟩⟩) :
    concatenate S16x49x512 2 [⟨S16x49x32, p 0⟩, ⟨S16x49x32, p 1⟩, ⟨S16x49x32, p 2⟩, ⟨S16x49x32, p 3⟩, ⟨S16x49x32, p 4⟩, ⟨S16x49x32, p 5⟩, ⟨S16x49x32, p 6⟩, ⟨S16x49x32, p 7⟩, ⟨S16x49x32, p 8⟩, ⟨S16x49x32, p 9⟩, ⟨S16x49x32, p 10⟩, ⟨S16x49x32, p 11⟩, ⟨S16x49x32, p 12⟩, ⟨S16x49x32, p 13⟩, ⟨S16x49x32, p 14⟩, ⟨S16x49x32, p 15⟩] hc (ix3 j n e) = p (headOf e) (ix3 j n (laneOf e)) := by
  have hh : headOf e = ⟨k, hk⟩ := Fin.ext hke
  rw [hh]
  refine concatenate_apply_piece (2 : Fin S16x49x512.rank) _ hc (ix3 j n e) k hk S16x49x32 (p ⟨k, hk⟩) hxk rfl (32 * k) (pre16 p k hk)
    (ix3 j n (laneOf e)) (fun b hb => ?_) ?_
  · match b with
    | ⟨0, _⟩ => rfl
    | ⟨1, _⟩ => rfl
    | ⟨2, _⟩ => exact absurd (Fin.ext rfl) hb
  · show 32 * k + e.val % 32 = e.val
    have h1 : e.val / 32 = k := hke
    omega

/-- Sixteen [16, 49, 32] arrays side by side along the last axis, read at feature e: piece e div 32 at lane e mod 32. -/
theorem concat16_apply (p : Fin 16 → FVec Ideal S16x49x32 .f32)
    (hc : Shape.Concatenates (([⟨S16x49x32, p 0⟩, ⟨S16x49x32, p 1⟩, ⟨S16x49x32, p 2⟩, ⟨S16x49x32, p 3⟩, ⟨S16x49x32, p 4⟩, ⟨S16x49x32, p 5⟩, ⟨S16x49x32, p 6⟩, ⟨S16x49x32, p 7⟩, ⟨S16x49x32, p 8⟩, ⟨S16x49x32, p 9⟩, ⟨S16x49x32, p 10⟩, ⟨S16x49x32, p 11⟩, ⟨S16x49x32, p 12⟩, ⟨S16x49x32, p 13⟩, ⟨S16x49x32, p 14⟩, ⟨S16x49x32, p 15⟩] : List ((s : Shape) × (s.Idx → Ideal .f32))).map (·.1)) S16x49x512 2)
    (j : Fin 16) (n : Fin 49) (e : Fin 512) :
    concatenate S16x49x512 2 [⟨S16x49x32, p 0⟩, ⟨S16x49x32, p 1⟩, ⟨S16x49x32, p 2⟩, ⟨S16x49x32, p 3⟩, ⟨S16x49x32, p 4⟩, ⟨S16x49x32, p 5⟩, ⟨S16x49x32, p 6⟩, ⟨S16x49x32, p 7⟩, ⟨S16x49x32, p 8⟩, ⟨S16x49x32, p 9⟩, ⟨S16x49x32, p 10⟩, ⟨S16x49x32, p 11⟩, ⟨S16x49x32, p 12⟩, ⟨S16x49x32, p 13⟩, ⟨S16x49x32, p 14⟩, ⟨S16x49x32, p 15⟩] hc (ix3 j n e) = p (headOf e) (ix3 j n (laneOf e)) := by
  have hlt : (headOf e).val < 16 := (headOf e).isLt
  interval_cases hke : (headOf e).val <;>
    exact concat16_at p hc j n e _ (by decide) hke rfl

end Cert.KernelIdeal.Proj

end
-- ==== Proof.HeadFn.lean ====
/-
  One attention head of the kernel's block, read at the ideal values and at one index.

  `headFn off` (defined beside `lane` in the module imported below) is the computation of one head with the
  first of its 32 lanes left open. Here it is cut into three parts, each written with the same operations: the
  scores  (q_n · k_m) · scale + bias(n, m) + mask(j, n, m)  (`scoreFn`), the rows of scores turned into rows of
  weights by the max-shifted softmax (`rowMaxFn`, `rowExpFn`, `weightFn`), and the product of the weights with
  the values (`headFn_eq`). Each step that is not pointwise — the cut of 32 lanes, the two products, the two
  reductions along a row, the casts that spread a per-row quantity back over its row, the bias slab spread over
  the windows — is read once at an index with explicit coordinates; the parts are then read at an index from
  those, and put together.

  The result, `headFn_apply`: at window j of the block, token n, lane d the head is the weighted average over
  the 49 tokens m of the value of token m at lane off + d, the weights being the softmax of the row of scores.
-/
import proofs.«147765_j76562087018560_1_alg».proof.Proof.Gen.KernelIdeal
import proofs.«147765_j76562087018560_1_alg».proof.Proof.Spec
import proofs.«147765_j76562087018560_1_alg».proof.Proof.HeadDef
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Head

open Cert.KernelIdeal Cert.KernelIdeal.Gen
open Idealize.ShloMosaic Idealize.ShloMosaic.ValueIdx Cert.WindowAttn

variable {F : FTy → Type} [FloatOps F]

/-! ## The steps that are not pointwise, each read at one index -/

/-- Entry (j, n, d) of the 32 lanes cut out from `off` is entry (j, n, off + d) of the whole array. -/
theorem slice_apply {α : Type} (off : Nat) (hoff : off + 32 ≤ 512) (hs : S16x49x512.Slices ![0, 0, off] S16x49x32)
    (x : S16x49x512.Idx → α) (j : Fin 16) (n : Fin 49) (d : Fin 32) :
    extractStridedSlice S16x49x32 ![0, 0, off] x hs (ix3 j n d) = x (ix3 j n (lane off hoff d)) := by
  refine extractStridedSlice_apply _ x hs (ix3 j n d) (ix3 j n (lane off hoff d)) fun a => ?_
  match a with
  | ⟨0, _⟩ => exact (Nat.zero_add _).symm
  | ⟨1, _⟩ => exact (Nat.zero_add _).symm
  | ⟨2, _⟩ => rfl

/-! ### The product of queries and keys: the operand indices, axis by axis -/

theorem qk_lhs_0 (i : S16x49x49.Idx) (q : dot_S16x49x32_S16x49x32_S16x49x49_2_2_1_1_0_0.contr.Idx) :
    (dot_S16x49x32_S16x49x32_S16x49x49_2_2_1_1_0_0.lhsIdx i q 0).val = (i 0).val := by
  unfold DotDims.lhsIdx
  rw [dif_pos (show (0 : Fin S16x49x32.rank) ∈ dot_S16x49x32_S16x49x32_S16x49x49_2_2_1_1_0_0.lhsBatch by decide)]
  rfl
theorem qk_lhs_1 (i : S16x49x49.Idx) (q : dot_S16x49x32_S16x49x32_S16x49x49_2_2_1_1_0_0.contr.Idx) :
    (dot_S16x49x32_S16x49x32_S16x49x49_2_2_1_1_0_0.lhsIdx i q 1).val = (i 1).val := by
  unfold DotDims.lhsIdx
  rw [dif_neg (show ¬(1 : Fin S16x49x32.rank) ∈ dot_S16x49x32_S16x49x32_S16x49x49_2_2_1_1_0_0.lhsBatch by decide), dif_pos (show (1 : Fin S16x49x32.rank) ∈ dot_S16x49x32_S16x49x32_S16x49x49_2_2_1_1_0_0.lhsNonContracting by decide)]
  rfl
theorem qk_lhs_2 (i : S16x49x49.Idx) (q : dot_S16x49x32_S16x49x32_S16x49x49_2_2_1_1_0_0.contr.Idx) :
    (dot_S16x49x32_S16x49x32_S16x49x49_2_2_1_1_0_0.lhsIdx i q 2).val = (q ⟨0, by decide⟩).val :=
  dot_S16x49x32_S16x49x32_S16x49x49_2_2_1_1_0_0.lhsIdx_val_of_single rfl i q
theorem qk_rhs_0 (i : S16x49x49.Idx) (q : dot_S16x49x32_S16x49x32_S16x49x49_2_2_1_1_0_0.contr.Idx) :
    (dot_S16x49x32_S16x49x32_S16x49x49_2_2_1_1_0_0.rhsIdx i q 0).val = (i 0).val := by
  unfold DotDims.rhsIdx
  rw [dif_pos (show (0 : Fin S16x49x32.rank) ∈ dot_S16x49x32_S16x49x32_S16x49x49_2_2_1_1_0_0.rhsBatch by decide)]
  rfl
theorem qk_rhs_1 (i : S16x49x49.Idx) (q : dot_S16x49x32_S16x49x32_S16x49x49_2_2_1_1_0_0.contr.Idx) :
    (dot_S16x49x32_S16x49x32_S16x49x49_2_2_1_1_0_0.rhsIdx i q 1).val = (i 2).val := by
  unfold DotDims.rhsIdx
  rw [dif_neg (show ¬(1 : Fin S16x49x32.rank) ∈ dot_S16x49x32_S16x49x32_S16x49x49_2_2_1_1_0_0.rhsBatch by decide), dif_pos (show (1 : Fin S16x49x32.rank) ∈ dot_S16x49x32_S16x49x32_S16x49x49_2_2_1_1_0_0.rhsNonContracting by decide)]
  rfl
theorem qk_rhs_2 (i : S16x49x49.Idx) (q : dot_S16x49x32_S16x49x32_S16x49x49_2_2_1_1_0_0.contr.Idx) :
    (dot_S16x49x32_S16x49x32_S16x49x49_2_2_1_1_0_0.rhsIdx i q 2).val = (q ⟨0, by decide⟩).val :=
  dot_S16x49x32_S16x49x32_S16x49x49_2_2_1_1_0_0.rhsIdx_val_of_single rfl i q

/-- Entry (j, n, m) of the product of queries and keys of window j: the inner product over the 32 lanes of
    token n's query with token m's key. -/
theorem qk_apply (a b : FVec Ideal S16x49x32 .bf16) (j : Fin 16) (n m : Fin 49) :
    matmul dot_S16x49x32_S16x49x32_S16x49x49_2_2_1_1_0_0 none a b (constant (F := Ideal) S16x49x49 .f32 0x00000000#32) (ix3 j n m)
      = ∑ k : Fin 32, a (ix3 j n k) * b (ix3 j m k) := by
  refine (Ideal.matmul_constant_zero_apply dot_S16x49x32_S16x49x32_S16x49x49_2_2_1_1_0_0 none a b (ix3 j n m)).trans ?_
  rw [← Equiv.sum_comp (contrEquiv1 dot_S16x49x32_S16x49x32_S16x49x49_2_2_1_1_0_0 32 rfl rfl).symm]
  refine Finset.sum_congr rfl fun k _ => ?_
  have hk := contrEquiv1_symm_val dot_S16x49x32_S16x49x32_S16x49x49_2_2_1_1_0_0 32 rfl rfl k
  have el : dot_S16x49x32_S16x49x32_S16x49x49_2_2_1_1_0_0.lhsIdx (ix3 j n m) ((contrEquiv1 dot_S16x49x32_S16x49x32_S16x49x49_2_2_1_1_0_0 32 rfl rfl).symm k) = ix3 j n k := funext fun a => Fin.ext (by
    match a with
    | ⟨0, _⟩ => exact qk_lhs_0 _ _
    | ⟨1, _⟩ => exact qk_lhs_1 _ _
    | ⟨2, _⟩ => exact (qk_lhs_2 _ _).trans hk)
  have er : dot_S16x49x32_S16x49x32_S16x49x49_2_2_1_1_0_0.rhsIdx (ix3 j n m) ((contrEquiv1 dot_S16x49x32_S16x49x32_S16x49x49_2_2_1_1_0_0 32 rfl rfl).symm k) = ix3 j m k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-! ### The product of weights and values: the operand indices, axis by axis -/

theorem wv_lhs_0 (i : S16x49x32.Idx) (q : dot_S16x49x49_S16x49x32_S16x49x32_2_1_1_2_0_0.contr.Idx) :
    (dot_S16x49x49_S16x49x32_S16x49x32_2_1_1_2_0_0.lhsIdx i q 0).val = (i 0).val := by
  unfold DotDims.lhsIdx
  rw [dif_pos (show (0 : Fin S16x49x49.rank) ∈ dot_S16x49x49_S16x49x32_S16x49x32_2_1_1_2_0_0.lhsBatch by decide)]
  rfl
theorem wv_lhs_1 (i : S16x49x32.Idx) (q : dot_S16x49x49_S16x49x32_S16x49x32_2_1_1_2_0_0.contr.Idx) :
    (dot_S16x49x49_S16x49x32_S16x49x32_2_1_1_2_0_0.lhsIdx i q 1).val = (i 1).val := by
  unfold DotDims.lhsIdx
  rw [dif_neg (show ¬(1 : Fin S16x49x49.rank) ∈ dot_S16x49x49_S16x49x32_S16x49x32_2_1_1_2_0_0.lhsBatch by decide), dif_pos (show (1 : Fin S16x49x49.rank) ∈ dot_S16x49x49_S16x49x32_S16x49x32_2_1_1_2_0_0.lhsNonContracting by decide)]
  rfl
theorem wv_lhs_2 (i : S16x49x32.Idx) (q : dot_S16x49x49_S16x49x32_S16x49x32_2_1_1_2_0_0.contr.Idx) :
    (dot_S16x49x49_S16x49x32_S16x49x32_2_1_1_2_0_0.lhsIdx i q 2).val = (q ⟨0, by decide⟩).val :=
  dot_S16x49x49_S16x49x32_S16x49x32_2_1_1_2_0_0.lhsIdx_val_of_single rfl i q
theorem wv_rhs_0 (i : S16x49x32.Idx) (q : dot_S16x49x49_S16x49x32_S16x49x32_2_1_1_2_0_0.contr.Idx) :
    (dot_S16x49x49_S16x49x32_S16x49x32_2_1_1_2_0_0.rhsIdx i q 0).val = (i 0).val := by
  unfold DotDims.rhsIdx
  rw [dif_pos (show (0 : Fin S16x49x32.rank) ∈ dot_S16x49x49_S16x49x32_S16x49x32_2_1_1_2_0_0.rhsBatch by decide)]
  rfl
theorem wv_rhs_1 (i : S16x49x32.Idx) (q : dot_S16x49x49_S16x49x32_S16x49x32_2_1_1_2_0_0.contr.Idx) :
    (dot_S16x49x49_S16x49x32_S16x49x32_2_1_1_2_0_0.rhsIdx i q 1).val = (q ⟨0, by decide⟩).val :=
  dot_S16x49x49_S16x49x32_S16x49x32_2_1_1_2_0_0.rhsIdx_val_of_single rfl i q
theorem wv_rhs_2 (i : S16x49x32.Idx) (q : dot_S16x49x49_S16x49x32_S16x49x32_2_1_1_2_0_0.contr.Idx) :
    (dot_S16x49x49_S16x49x32_S16x49x32_2_1_1_2_0_0.rhsIdx i q 2).val = (i 2).val := by
  unfold DotDims.rhsIdx
  rw [dif_neg (show ¬(2 : Fin S16x49x32.rank) ∈ dot_S16x49x49_S16x49x32_S16x49x32_2_1_1_2_0_0.rhsBatch by decide), dif_pos (show (2 : Fin S16x49x32.rank) ∈ dot_S16x49x49_S16x49x32_S16x49x32_2_1_1_2_0_0.rhsNonContracting by decide)]
  rfl

/-- Entry (j, n, d) of the product of weights and values of window j: the sum over the 49 tokens m of
    the weight of m in row n times lane d of m's value. -/
theorem wv_apply (a : FVec Ideal S16x49x49 .bf16) (b : FVec Ideal S16x49x32 .bf16) (j : Fin 16) (n : Fin 49) (d : Fin 32) :
    matmul dot_S16x49x49_S16x49x32_S16x49x32_2_1_1_2_0_0 none a b (constant (F := Ideal) S16x49x32 .f32 0x00000000#32) (ix3 j n d)
      = ∑ m : Fin 49, a (ix3 j n m) * b (ix3 j m d) := by
  refine (Ideal.matmul_constant_zero_apply dot_S16x49x49_S16x49x32_S16x49x32_2_1_1_2_0_0 none a b (ix3 j n d)).trans ?_
  rw [← Equiv.sum_comp (contrEquiv1 dot_S16x49x49_S16x49x32_S16x49x32_2_1_1_2_0_0 49 rfl rfl).symm]
  refine Finset.sum_congr rfl fun k _ => ?_
  have hk := contrEquiv1_symm_val dot_S16x49x49_S16x49x32_S16x49x32_2_1_1_2_0_0 49 rfl rfl k
  have el : dot_S16x49x49_S16x49x32_S16x49x32_2_1_1_2_0_0.lhsIdx (ix3 j n d) ((contrEquiv1 dot_S16x49x49_S16x49x32_S16x49x32_2_1_1_2_0_0 49 rfl rfl).symm k) = ix3 j n k := funext fun a => Fin.ext (by
    match a with
    | ⟨0, _⟩ => exact wv_lhs_0 _ _
    | ⟨1, _⟩ => exact wv_lhs_1 _ _
    | ⟨2, _⟩ => exact (wv_lhs_2 _ _).trans hk)
  have er : dot_S16x49x49_S16x49x32_S16x49x32_2_1_1_2_0_0.rhsIdx (ix3 j n d) ((contrEquiv1 dot_S16x49x49_S16x49x32_S16x49x32_2_1_1_2_0_0 49 rfl rfl).symm k) = ix3 j k d := funext fun a => Fin.ext (by
    match a with
    | ⟨0, _⟩ => exact wv_rhs_0 _ _
    | ⟨1, _⟩ => exact (wv_rhs_1 _ _).trans hk
    | ⟨2, _⟩ => exact wv_rhs_2 _ _)
  rw [el, er]

/-! ### The two reductions along a row, the keepdims casts and the bias slab -/

/-- Row (j, n) with coordinate m put back on the reduced axis is the index (j, n, m). -/
theorem lift_row (j : Fin 16) (n m : Fin 49) :
    reduces_S16x49x49_S16x49.lift (ix2 j n) m = ix3 j n m := funext fun a => Fin.ext (by
  match a with
  | ⟨0, _⟩ => rfl
  | ⟨1, _⟩ => rfl
  | ⟨2, _⟩ => rfl)

/-- The maximum along the last axis at row (j, n): the fold of max over the row from the starting value. -/
theorem rowFold_apply (s : FVec Ideal S16x49x49 .f32) (hφ : FKind.Formats .f32)
    (hacc : (0xFF800000#32 : BitVec 32) = FKind.maximumf.neutral .f32 hφ) (j : Fin 16) (n : Fin 49) :
    multiReduction (F := Ideal) .maximumf [2] S16x49 s 0xFF800000#32 reduces_S16x49x49_S16x49 hφ hacc (ix2 j n)
      = (Finset.univ : Finset (Fin 49)).fold max negInf (fun m => s (ix3 j n m)) := by
  refine (Ideal.multiReduction_maximumf_single s 0xFF800000#32 reduces_S16x49x49_S16x49 hφ hacc (ix2 j n)).trans ?_
  exact congrArg (fun f => (Finset.univ : Finset (Fin 49)).fold max negInf f)
    (funext fun m => congrArg s (lift_row j n m))

/-- The sum along the last axis at row (j, n): the sum over the row. -/
theorem rowSum_apply (e : FVec Ideal S16x49x49 .f32) (hφ : FKind.Formats .f32)
    (hacc : (0x00000000#32 : BitVec 32) = FKind.add.neutral .f32 hφ) (j : Fin 16) (n : Fin 49) :
    multiReduction (F := Ideal) .add [2] S16x49 e 0x00000000#32 reduces_S16x49x49_S16x49 hφ hacc (ix2 j n)
      = ∑ m : Fin 49, e (ix3 j n m) := by
  refine (Ideal.multiReduction_add_single e 0x00000000#32 reduces_S16x49x49_S16x49 hφ hacc (ix2 j n)).trans ?_
  exact Finset.sum_congr rfl fun m _ => congrArg e (lift_row j n m)

/-- A per-row quantity spread back over its row: entry (j, n, m) is the quantity of row (j, n). -/
theorem keepdims_apply {α : Type} (x : S16x49.Idx → α) (j : Fin 16) (n m : Fin 49) :
    broadcastTo S16x49x49 (shapeCast S16x49x1 x shapeCasts_S16x49_S16x49x1) broadcasts_S16x49x1_S16x49x49 (ix3 j n m)
      = x (ix2 j n) := by
  refine (broadcastTo_apply _ broadcasts_S16x49x1_S16x49x49 (ix3 j n m) (ix3 j n (0 : Fin 1)) fun a => ?_).trans ?_
  · match a with
    | ⟨0, _⟩ => rfl
    | ⟨1, _⟩ => rfl
    | ⟨2, _⟩ => rfl
  · refine shapeCast_apply x shapeCasts_S16x49_S16x49x1 (ix3 j n (0 : Fin 1)) (ix2 j n) ?_
    rw [Shape.rowMajor_val_two, Shape.rowMajor_val_three]
    show j.val * 49 + n.val = (j.val * 49 + n.val) * 1 + 0
    omega

/-- The bias slab spread over the sixteen windows: entry (j, n, m) is the slab's entry (n, m). -/
theorem bias_apply {α : Type} (rp : S1x49x49.Idx → α) (j : Fin 16) (n m : Fin 49) :
    broadcastTo S16x49x49 (shapeCast S1x49x49 (shapeCast S49x49 rp shapeCasts_S1x49x49_S49x49) shapeCasts_S49x49_S1x49x49)
        broadcasts_S1x49x49_S16x49x49 (ix3 j n m)
      = rp (ix3 (0 : Fin 1) n m) := by
  refine (broadcastTo_apply _ broadcasts_S1x49x49_S16x49x49 (ix3 j n m) (ix3 (0 : Fin 1) n m) fun a => ?_).trans ?_
  · match a with
    | ⟨0, _⟩ => rfl
    | ⟨1, _⟩ => rfl
    | ⟨2, _⟩ => rfl
  · exact congrFun (shapeCast_shapeCast rp shapeCasts_S1x49x49_S49x49 shapeCasts_S49x49_S1x49x49) _

/-! ## The head in three parts: scores, rows of scores to rows of weights, weights times values -/

/-- The scores of one head on a block: the products of queries and keys over the 32 lanes from `off`, scaled, plus
    the bias slab, plus the mask. -/
def scoreFn (off : Nat) (hs : S16x49x512.Slices ![0, 0, off] S16x49x32)
    (qs ks : FVec F S16x49x512 .f32) (msk : Vec F S16x49x49 .f32) (rp : Vec F S1x49x49 .f32) : FVec F S16x49x49 .f32 :=
  have q : FVec F S16x49x32 .f32 := extractStridedSlice S16x49x32 ![0, 0, off] qs hs
  have qb : FVec F S16x49x32 .bf16 := truncf .bf16 q bitsLt_bf16_f32
  have k : FVec F S16x49x32 .f32 := extractStridedSlice S16x49x32 ![0, 0, off] ks hs
  have kb : FVec F S16x49x32 .bf16 := truncf .bf16 k bitsLt_bf16_f32
  have zero49 : FVec F S16x49x49 .f32 := constant S16x49x49 .f32 0x00000000#32
  have qk : FVec F S16x49x49 .f32 := matmul dot_S16x49x32_S16x49x32_S16x49x49_2_2_1_1_0_0 none qb kb zero49
  have c : F .f32 := Scalar.ofBits .f32 0x3E3504F3#32
  have cs : FVec F S16x49x49 .f32 := broadcast S16x49x49 c
  have scaled : FVec F S16x49x49 .f32 := mulf qk cs
  have r1 : FVec F S49x49 .f32 := shapeCast S49x49 rp shapeCasts_S1x49x49_S49x49
  have r2 : FVec F S1x49x49 .f32 := shapeCast S1x49x49 r1 shapeCasts_S49x49_S1x49x49
  have r3 : FVec F S16x49x49 .f32 := broadcastTo S16x49x49 r2 broadcasts_S1x49x49_S16x49x49
  have biased : FVec F S16x49x49 .f32 := addf scaled r3
  addf biased msk

/-- The row maxima as the program takes them: the maximum along the last axis, joined with minus infinity. -/
def rowMaxFn (s : FVec F S16x49x49 .f32) : FVec F S16x49 .f32 :=
  have mx0 : FVec F S16x49 .f32 := multiReduction .maximumf [2] S16x49 s 0xFF800000#32 reduces_S16x49x49_S16x49 (.inl rfl) rfl
  have ninf : F .f32 := Scalar.ofBits .f32 0xFF800000#32
  have ninfs : FVec F S16x49 .f32 := broadcast S16x49 ninf
  maximumf ninfs mx0

/-- The exponentials of the scores shifted by their row's maximum. -/
def rowExpFn (s : FVec F S16x49x49 .f32) : FVec F S16x49x49 .f32 :=
  have mxc : FVec F S16x49x1 .f32 := shapeCast S16x49x1 (rowMaxFn s) shapeCasts_S16x49_S16x49x1
  have mxb : FVec F S16x49x49 .f32 := broadcastTo S16x49x49 mxc broadcasts_S16x49x1_S16x49x49
  have sh : FVec F S16x49x49 .f32 := subf s mxb
  exp sh

/-- Rows of scores to rows of weights: each shifted exponential over its row's sum of them. -/
def weightFn (s : FVec F S16x49x49 .f32) : FVec F S16x49x49 .f32 :=
  have ex : FVec F S16x49x49 .f32 := rowExpFn s
  have den : FVec F S16x49 .f32 := multiReduction .add [2] S16x49 ex 0x00000000#32 reduces_S16x49x49_S16x49 (.inl rfl) rfl
  have denc : FVec F S16x49x1 .f32 := shapeCast S16x49x1 den shapeCasts_S16x49_S16x49x1
  have denb : FVec F S16x49x49 .f32 := broadcastTo S16x49x49 denc broadcasts_S16x49x1_S16x49x49
  divf ex denb

/-- The head is the product of the weights of its scores with its values. -/
theorem headFn_eq (off : Nat) (hs : S16x49x512.Slices ![0, 0, off] S16x49x32)
    (qs ks vs : FVec F S16x49x512 .f32) (msk : Vec F S16x49x49 .f32) (rp : Vec F S1x49x49 .f32) :
    headFn off hs qs ks vs msk rp
      = matmul dot_S16x49x49_S16x49x32_S16x49x32_2_1_1_2_0_0 none
          (truncf .bf16 (weightFn (scoreFn off hs qs ks msk rp)) bitsLt_bf16_f32)
          (truncf .bf16 (extractStridedSlice S16x49x32 ![0, 0, off] vs hs) bitsLt_bf16_f32)
          (constant S16x49x32 .f32 0x00000000#32) := rfl

/-- The score of token n against token m in window j. -/
theorem scoreFn_apply (off : Nat) (hoff : off + 32 ≤ 512) (hs : S16x49x512.Slices ![0, 0, off] S16x49x32)
    (qs ks : FVec Ideal S16x49x512 .f32) (msk : Vec Ideal S16x49x49 .f32) (rp : Vec Ideal S1x49x49 .f32)
    (j : Fin 16) (n m : Fin 49) :
    scoreFn (F := Ideal) off hs qs ks msk rp (ix3 j n m)
      = ((∑ d' : Fin 32, qs (ix3 j n (lane off hoff d')) * ks (ix3 j m (lane off hoff d'))) * scale
          + rp (ix3 (0 : Fin 1) n m)) + msk (ix3 j n m) := by
  unfold scoreFn
  refine (addf_apply _ _ _).trans (congrArg₂ (· + ·) ?_ rfl)
  refine (addf_apply _ _ _).trans (congrArg₂ (· + ·) ?_ (bias_apply rp j n m))
  refine (mulf_apply _ _ _).trans (congrArg₂ (· * ·) ?_ rfl)
  refine (qk_apply _ _ j n m).trans (Finset.sum_congr rfl fun d' _ => ?_)
  exact congrArg₂ (· * ·) (slice_apply off hoff hs qs j n d') (slice_apply off hoff hs ks j m d')

/-- The program's row maximum is the row's maximum. -/
theorem rowMaxFn_apply (s : FVec Ideal S16x49x49 .f32) (j : Fin 16) (n : Fin 49) :
    rowMaxFn s (ix2 j n) = rowMax (fun m => s (ix3 j n m)) :=
  congrArg (max negInf) (rowFold_apply s (.inl rfl) rfl j n)

/-- The program's shifted exponential is the row's. -/
theorem rowExpFn_apply (s : FVec Ideal S16x49x49 .f32) (j : Fin 16) (n m : Fin 49) :
    rowExpFn s (ix3 j n m) = rowExp (fun m' => s (ix3 j n m')) m :=
  congrArg (fun t => Ideal.exp (s (ix3 j n m) - t)) ((keepdims_apply (rowMaxFn s) j n m).trans (rowMaxFn_apply s j n))

/-- The program's weights are the softmax of the row. -/
theorem weightFn_apply (s : FVec Ideal S16x49x49 .f32) (j : Fin 16) (n m : Fin 49) :
    weightFn s (ix3 j n m) = softmax (fun m' => s (ix3 j n m')) m := by
  have hden : broadcastTo S16x49x49 (shapeCast S16x49x1
        (multiReduction (F := Ideal) .add [2] S16x49 (rowExpFn s) 0x00000000#32 reduces_S16x49x49_S16x49 (.inl rfl) rfl)
        shapeCasts_S16x49_S16x49x1) broadcasts_S16x49x1_S16x49x49 (ix3 j n m)
      = ∑ m' : Fin 49, rowExp (fun m' => s (ix3 j n m')) m' :=
    (keepdims_apply _ j n m).trans ((rowSum_apply (rowExpFn s) (.inl rfl) rfl j n).trans
      (Finset.sum_congr rfl fun m' _ => rowExpFn_apply s j n m'))
  exact congrArg₂ Ideal.div (rowExpFn_apply s j n m) hden

/-- The head read at the ideal values and at one index: the softmax-weighted average of the values. -/
theorem headFn_apply (off : Nat) (hoff : off + 32 ≤ 512) (hs : S16x49x512.Slices ![0, 0, off] S16x49x32)
    (qs ks vs : FVec Ideal S16x49x512 .f32) (msk : Vec Ideal S16x49x49 .f32) (rp : Vec Ideal S1x49x49 .f32)
    (j : Fin 16) (n : Fin 49) (d : Fin 32) :
    headFn (F := Ideal) off hs qs ks vs msk rp (ix3 j n d)
      = ∑ m : Fin 49,
          softmax (fun m' : Fin 49 =>
              ((∑ d' : Fin 32, qs (ix3 j n (lane off hoff d')) * ks (ix3 j m' (lane off hoff d'))) * scale
                + rp (ix3 (0 : Fin 1) n m')) + msk (ix3 j n m')) m
            * vs (ix3 j m (lane off hoff d)) := by
  refine (congrFun (headFn_eq off hs qs ks vs msk rp) (ix3 j n d)).trans ?_
  refine (wv_apply _ _ j n d).trans (Finset.sum_congr rfl fun m _ => ?_)
  have hv : truncf .bf16 (extractStridedSlice S16x49x32 ![0, 0, off] vs hs) bitsLt_bf16_f32 (ix3 j m d)
      = vs (ix3 j m (lane off hoff d)) := slice_apply off hoff hs vs j m d
  have hw : truncf .bf16 (weightFn (scoreFn off hs qs ks msk rp)) bitsLt_bf16_f32 (ix3 j n m)
      = softmax (fun m' : Fin 49 => scoreFn off hs qs ks msk rp (ix3 j n m')) m := weightFn_apply _ j n m
  rw [hv, hw]
  refine congrArg (fun t => t * vs (ix3 j m (lane off hoff d))) ?_
  exact congrArg (fun r => softmax r m) (funext fun m' => scoreFn_apply off hoff hs qs ks msk rp j n m')

end Cert.KernelIdeal.Head

end
-- ==== Proof.Block.lean ====
/-
  The block the kernel's body leaves in the output buffer, at the ideal values, is the specification's
  window function, window by window.

  The body works on 16 windows at a time and never mixes them: entry (j, n, f) of its result depends
  only on window j's 49 × 512 tokens, on window j's 49 × 49 mask, and on the weights. The fused
  projection of the block is the specification's qkv of window j (column 512·p + 32·h + d is lane
  d of head h of part p: queries, keys, values), each head is the softmax-weighted average headOut,
  the sixteen heads side by side are merged, and the output projection gives window. The kernel
  holds the two weight matrices transposed (input feature first), so its w(e, g) is the
  specification's W g e.
-/
import proofs.«147765_j76562087018560_1_alg».proof.Proof.Pieces
import proofs.«147765_j76562087018560_1_alg».proof.Proof.Proj
import proofs.«147765_j76562087018560_1_alg».proof.Proof.HeadFn

noncomputable section

namespace Cert.KernelIdeal.Block

open Cert.KernelIdeal Cert.KernelIdeal.Gen Cert.KernelIdeal.Head Cert.KernelIdeal.Pieces Cert.KernelIdeal.Proj
open Idealize.ShloMosaic Idealize.ShloMosaic.ValueIdx Cert.WindowAttn

variable (x0 : Vec Ideal S16x49x512 .f32) (x1 : Vec Ideal S512x1536 .f32) (x2 : Vec Ideal S1x1536 .f32)
  (x3 : Vec Ideal S512x512 .f32) (x4 : Vec Ideal S1x512 .f32) (x5 : Vec Ideal S16x49x49 .f32) (x6 : Vec Ideal S16x49x49 .f32)

/-- Column base + 32·h + d of the block's fused projection is the specification's projection of window j,
    token n, at lane d of head h of the part that starts at column base = 512·p. -/
theorem proj_at (base : Nat) (hb : base + 512 ≤ 1536) (p : Fin 3) (hp : base = 512 * p.val)
    (j : Fin 16) (n : Fin 49) (h : Fin 16) (d : Fin 32) (hl : 32 * h.val + 32 ≤ 512) :
    k0_pay3 (F := Ideal) x0 x1 x2 (ix3 j n (part base hb (lane (32 * h.val) hl d)))
      = qkv (fun n e => x0 (ix3 j n e)) (fun g e => x1 (ix2 e g)) (fun g => x2 (ix2 (0 : Fin 1) g)) n (col p h d) := by
  have e : part base hb (lane (32 * h.val) hl d) = col p h d :=
    Fin.ext (by show base + (32 * h.val + d.val) = 512 * p.val + 32 * h.val + d.val; omega)
  rw [e, pay3_apply]
  rfl

/-- Head h of the block at (window j, token n, lane d) is the specification's head result for window j. -/
theorem heads_apply (j : Fin 16) (n : Fin 49) (h : Fin 16) (d : Fin 32) :
    heads (F := Ideal) x0 x1 x2 x5 x6 h (ix3 j n d)
      = headOut (fun n e => x0 (ix3 j n e)) (fun n m => x6 (ix3 j n m)) (fun g e => x1 (ix2 e g))
          (fun g => x2 (ix2 (0 : Fin 1) g)) (fun h n m => x5 (ix3 h n m)) h n d := by
  have hl : 32 * h.val + 32 ≤ 512 := by have := h.isLt; omega
  unfold heads
  rw [headFn_apply (32 * h.val) hl]
  unfold headOut score
  refine Finset.sum_congr rfl fun m _ => ?_
  have hq : ∀ (n' : Fin 49) (d' : Fin 32), k0_pay4 (F := Ideal) x0 x1 x2 (ix3 j n' (lane (32 * h.val) hl d'))
      = qkv (fun n e => x0 (ix3 j n e)) (fun g e => x1 (ix2 e g)) (fun g => x2 (ix2 (0 : Fin 1) g)) n' (col 0 h d') :=
    fun n' d' => (pay4_apply x0 x1 x2 j n' _).trans (proj_at x0 x1 x2 0 (by decide) 0 rfl j n' h d' hl)
  have hk : ∀ (n' : Fin 49) (d' : Fin 32), k0_pay5 (F := Ideal) x0 x1 x2 (ix3 j n' (lane (32 * h.val) hl d'))
      = qkv (fun n e => x0 (ix3 j n e)) (fun g e => x1 (ix2 e g)) (fun g => x2 (ix2 (0 : Fin 1) g)) n' (col 1 h d') :=
    fun n' d' => (pay5_apply x0 x1 x2 j n' _).trans (proj_at x0 x1 x2 512 (by decide) 1 rfl j n' h d' hl)
  have hv : ∀ (n' : Fin 49) (d' : Fin 32), k0_pay6 (F := Ideal) x0 x1 x2 (ix3 j n' (lane (32 * h.val) hl d'))
      = qkv (fun n e => x0 (ix3 j n e)) (fun g e => x1 (ix2 e g)) (fun g => x2 (ix2 (0 : Fin 1) g)) n' (col 2 h d') :=
    fun n' d' => (pay6_apply x0 x1 x2 j n' _).trans (proj_at x0 x1 x2 1024 (by decide) 2 rfl j n' h d' hl)
  rw [hv]
  refine congrArg (· * _) ?_
  refine congrArg (fun s => softmax s m) (funext fun m' => ?_)
  rw [slab_apply]
  refine congrArg (· + _) (congrArg (· + _) (congrArg (· * _) (Finset.sum_congr rfl fun d' _ => ?_)))
  rw [hq, hk]

/-- The block at (window j, token n, feature f) is the specification's window function of window j. -/
theorem out0_7_apply (j : Fin 16) (n : Fin 49) (f : Fin 512) :
    out0_7 (F := Ideal) x0 x1 x2 x3 x4 x5 x6 (ix3 j n f)
      = window (fun n e => x0 (ix3 j n e)) (fun n m => x6 (ix3 j n m)) (fun g e => x1 (ix2 e g))
          (fun g => x2 (ix2 (0 : Fin 1) g)) (fun h n m => x5 (ix3 h n m)) (fun f e => x3 (ix2 e f))
          (fun f => x4 (ix2 (0 : Fin 1) f)) n f := by
  rw [out0_7_eq]
  refine (pay2_apply _ x3 x4 j n f).trans ?_
  unfold window merged
  refine congrArg (· + _) (Finset.sum_congr rfl fun e _ => congrArg (· * _) ?_)
  exact (concat16_apply (heads (F := Ideal) x0 x1 x2 x5 x6) _ j n e).trans (heads_apply x0 x1 x2 x5 x6 j n (headOf e) (laneOf e))

end Cert.KernelIdeal.Block

end
-- ==== Proof.Reads.lean ====
/-
  The pallas_call's blocks, read from the arrays.

  The call runs over 128 grid points. At point t the tokens' window (input 0) and the output window
  hold rows 16·t … 16·t + 15 of their 2048-row arrays; the mask's window (input 6) holds rows
  16·(t mod 4) … of the 64-row mask array, so that block row j is the mask of window 16·t + j taken
  mod 64; the five remaining inputs (the two weight matrices, the two bias rows, the relative-position
  bias array) are whole arrays at every point. The 128 output blocks cover the output array.
-/
import proofs.«147765_j76562087018560_1_alg».proof.Proof.Gen.KernelIdeal.Frame
import Idealize.ShloMosaic.Lib.ValueIdx
import Idealize.ShloMosaic.Lib.Pipeline.Value

set_option maxRecDepth 16384

noncomputable section

namespace Cert.KernelIdeal.Reads

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (c : Dev nD)

/-- Row 16·t + j of a 2048-row array: row j of block t. -/
def row (t : Fin 128) (j : Fin 16) : Fin 2048 := ⟨16 * t.val + j.val, by have := t.isLt; have := j.isLt; omega⟩

/-- Row 16·(t mod 4) + j of the 64-row mask array: row j of the mask block at point t. -/
def maskRow (t : Fin 128) (j : Fin 16) : Fin 64 := ⟨16 * (t.val % 4) + j.val, by have := j.isLt; omega⟩

/-- The printed index maps of the three moving windows, decided once over the 128 grid points: the tokens'
    and the output's block row index is the point itself, the mask's is the point mod 4; the other two block
    indices are zero. -/
theorem idx_moving : ∀ t : Fin cfg0.N,
    win0_0.index t (0 : Fin 3) = t.val ∧ win0_0.index t (1 : Fin 3) = 0 ∧ win0_0.index t (2 : Fin 3) = 0
    ∧ win0_6.index t (0 : Fin 3) = t.val % 4 ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The printed index maps of the five whole-array windows, decided over the grid: every block index is zero. -/
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0 :=
  (by decide +kernel : ∀ t : Fin grid0.N, _)

/-- The tokens' block at point t. -/
theorem iblk0_apply (t : Fin cfg0.N) (j : Fin 16) (n : Fin 49) (e : Fin 512) :
    (iblk m c 0 t : Vec F S16x49x512 .f32) (ix3 j n e) = (V m c main_arg0 : Vec F S2048x49x512 .f32) (ix3 (row t j) n e) := by
  obtain ⟨e0, e1, e2, -⟩ := idx_moving t
  show V m c main_arg0 (((cfg0.win 0).blk t).view.emb (ix3 j n e)) = V m c main_arg0 (ix3 (row t j) n e)
  refine congrArg (V m c main_arg0) (funext fun a => Fin.ext ?_)
  match a with
  | ⟨0, _⟩ => show win0_0.index t (0 : Fin 3) * 16 + 1 * j.val = 16 * t.val + j.val; omega
  | ⟨1, _⟩ => show win0_0.index t (1 : Fin 3) * 49 + 1 * n.val = n.val; omega
  | ⟨2, _⟩ => show win0_0.index t (2 : Fin 3) * 512 + 1 * e.val = e.val; omega

/-- The fused projection's weights are whole at every point. -/
theorem iblk1_eq (t : Fin cfg0.N) : (iblk m c 1 t : Vec F S512x1536 .f32) = (V m c main_v0 : Vec F S512x1536 .f32) := by
  obtain ⟨e0, e1, -⟩ := idx_whole t
  funext y
  show V m c main_v0 (((cfg0.win 1).blk t).view.emb y) = V m c main_v0 y
  refine congrArg (V m c main_v0) (funext fun a => Fin.ext ?_)
  match a with
  | ⟨0, _⟩ => show win0_1.index t (0 : Fin 2) * 512 + 1 * (y 0).val = (y 0).val; omega
  | ⟨1, _⟩ => show win0_1.index t (1 : Fin 2) * 1536 + 1 * (y 1).val = (y 1).val; omega

/-- Its bias row likewise. -/
theorem iblk2_eq (t : Fin cfg0.N) : (iblk m c 2 t : Vec F S1x1536 .f32) = (V m c main_v1 : Vec F S1x1536 .f32) := by
  obtain ⟨-, -, e0, e1, -⟩ := idx_whole t
  funext y
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; omega
  | ⟨1, _⟩ => show win0_2.index t (1 : Fin 2) * 1536 + 1 * (y 1).val = (y 1).val; omega

/-- The output projection's weights likewise. -/
theorem iblk3_eq (t : Fin cfg0.N) : (iblk m c 3 t : Vec F S512x512 .f32) = (V m c main_v2 : Vec F S512x512 .f32) := by
  obtain ⟨-, -, -, -, e0, e1, -⟩ := idx_whole t
  funext y
  show V m c main_v2 (((cfg0.win 3).blk t).view.emb y) = V m c main_v2 y
  refine congrArg (V m c main_v2) (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- Its bias row likewise. -/
theorem iblk4_eq (t : Fin cfg0.N) : (iblk m c 4 t : Vec F S1x512 .f32) = (V m c main_v3 : Vec F S1x512 .f32) := by
  obtain ⟨-, -, -, -, -, -, e0, e1, -⟩ := idx_whole t
  funext y
  show V m c main_v3 (((cfg0.win 4).blk t).view.emb y) = V m c main_v3 y
  refine congrArg (V m c main_v3) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- The relative-position bias array likewise. -/
theorem iblk5_eq (t : Fin cfg0.N) : (iblk m c 5 t : Vec F S16x49x49 .f32) = (V m c main_v11 : Vec F S16x49x49 .f32) := by
  obtain ⟨-, -, -, -, -, -, -, -, e0, e1, e2⟩ := idx_whole t
  funext y
  show V m c main_v11 (((cfg0.win 5).blk t).view.emb y) = V m c main_v11 y
  refine congrArg (V m c main_v11) (funext fun a => Fin.ext ?_)
  match a with
  | ⟨0, _⟩ => show win0_5.index t (0 : Fin 3) * 16 + 1 * (y 0).val = (y 0).val; omega
  | ⟨1, _⟩ => show win0_5.index t (1 : Fin 3) * 49 + 1 * (y 1).val = (y 1).val; omega
  | ⟨2, _⟩ => show win0_5.index t (2 : Fin 3) * 49 + 1 * (y 2).val = (y 2).val; omega

/-- The mask's block at point t. -/
theorem iblk6_apply (t : Fin cfg0.N) (j : Fin 16) (n k : Fin 49) :
    (iblk m c 6 t : Vec F S16x49x49 .f32) (ix3 j n k) = (V m c main_arg1 : Vec F S64x49x49 .f32) (ix3 (maskRow t j) n k) := by
  obtain ⟨-, -, -, e0, e1, e2, -⟩ := idx_moving t
  show V m c main_arg1 (((cfg0.win 6).blk t).view.emb (ix3 j n k)) = V m c main_arg1 (ix3 (maskRow t j) n k)
  refine congrArg (V m c main_arg1) (funext fun a => Fin.ext ?_)
  match a with
  | ⟨0, _⟩ => show win0_6.index t (0 : Fin 3) * 16 + 1 * j.val = 16 * (t.val % 4) + j.val; omega
  | ⟨1, _⟩ => show win0_6.index t (1 : Fin 3) * 49 + 1 * n.val = n.val; omega
  | ⟨2, _⟩ => show win0_6.index t (2 : Fin 3) * 49 + 1 * k.val = k.val; omega

/-- Where entry (j, n, f) of the output block at point t sits in the output array. -/
theorem emb7 (t : Fin cfg0.N) (j : Fin 16) (n : Fin 49) (f : Fin 512) :
    ((cfg0.win 7).blk t).view.emb (ix3 j n f) = (ix3 (row t j) n f : S2048x49x512.Idx) := by
  obtain ⟨-, -, -, -, -, -, e0, e1, e2⟩ := idx_moving t
  funext a; apply Fin.ext
  match a with
  | ⟨0, _⟩ => show win0_7.index t (0 : Fin 3) * 16 + 1 * j.val = 16 * t.val + j.val; omega
  | ⟨1, _⟩ => show win0_7.index t (1 : Fin 3) * 49 + 1 * n.val = n.val; omega
  | ⟨2, _⟩ => show win0_7.index t (2 : Fin 3) * 512 + 1 * f.val = f.val; omega

/-- An index of the output array is in point t's block iff each coordinate is in the block's range on its axis. -/
theorem mem_blk7 (t : Fin cfg0.N) (i : S2048x49x512.Idx) :
    i ∈ ((cfg0.win 7).blk t).view.set ↔ ∀ a : Fin 3, win0_7.index t a * S16x49x512.size a ≤ (i a).val ∧ (i a).val < win0_7.index t a * S16x49x512.size a + S16x49x512.size a := by
  show i ∈ ((View.whole main_v12).slice (win0_7.rect t)).set ↔ _
  rw [View.set_slice_whole, Rect.mem_set_unit]
  exact Iff.rfl

/-- Every index of the output array lies in the block of some point (all of which write back). -/
theorem cover7 (i : S2048x49x512.Idx) :
    ∃ t : Fin cfg0.N, (cfg0.win 7).flush t = true ∧ i ∈ ((cfg0.win 7).blk t).view.set := by
  have hi0 : (i 0).val < 2048 := (i 0).isLt
  have hi1 : (i 1).val < 49 := (i 1).isLt
  have hi2 : (i 2).val < 512 := (i 2).isLt
  -- row r of the array lies in the block of point r div 16
  obtain ⟨t, ht⟩ : ∃ t : Fin cfg0.N, t.val = (i 0).val / 16 := ⟨⟨(i 0).val / 16, by show (i 0).val / 16 < 128; omega⟩, rfl⟩
  obtain ⟨-, -, -, -, -, -, e0, e1, e2⟩ := idx_moving t
  refine ⟨t, flush0_7 t, ?_⟩
  rw [mem_blk7]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 49 ≤ (i 1).val ∧ (i 1).val < win0_7.index t (1 : Fin 3) * 49 + 49; omega
  | ⟨2, _⟩ => show win0_7.index t (2 : Fin 3) * 512 ≤ (i 2).val ∧ (i 2).val < win0_7.index t (2 : Fin 3) * 512 + 512; omega

end Cert.KernelIdeal.Reads

end
-- ==== Proof.Prelude.lean ====
/-
  What the kernel program's host operations hand to the pallas_call, read at an index.

  Before the call the program transposes the two weight matrices (the call wants the input feature
  first), gives the two bias vectors a leading unit axis, and gathers the relative-position bias
  array from the bias table and the index array. The first four are read here entry by entry from
  the program's arguments. The fifth is the same chain of operations the reference program applies
  to the same two arguments, so it is identified with the reference's value as a whole and its
  gather is never opened.
-/
import proofs.«147765_j76562087018560_1_alg».proof.Proof.Gen.KernelIdeal.Frame
import proofs.«147765_j76562087018560_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Prelude

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The fused projection's weights as the call finds them: entry (e, g) is entry (g, e) of the argument. -/
theorem v0_apply (e : Fin 512) (g : Fin 1536) :
    (V m c main_v0 : Vec Ideal S512x1536 .f32) (ix2 e g)
      = (m ((c : Thread nD τ).loc main_arg2) : Vec Ideal S1536x512 .f32) (ix2 g e) := by
  have E : (V m c main_v0 : Vec Ideal S512x1536 .f32)
      = transpose S512x1536 [1, 0] (m ((c : Thread nD τ).loc main_arg2)) transposes_S1536x512_S512x1536_1_0 := by
    dsimp only [Gen.V, Gen.hostOps0]; after_results
  exact (congrFun E (ix2 e g)).trans (transpose_ix2_apply _ _ e g)

/-- Its bias as the call finds it: entry (0, g) is entry g of the argument. -/
theorem v1_apply (g : Fin 1536) :
    (V m c main_v1 : Vec Ideal S1x1536 .f32) (ix2 (0 : Fin 1) g)
      = (m ((c : Thread nD τ).loc main_arg3) : Vec Ideal S1536 .f32) (ix1 g) := by
  have E : (V m c main_v1 : Vec Ideal S1x1536 .f32)
      = shapeCast S1x1536 (m ((c : Thread nD τ).loc main_arg3)) shapeCasts_S1536_S1x1536 := by
    dsimp only [Gen.V, Gen.hostOps0]; after_results; rfl
  exact (congrFun E (ix2 (0 : Fin 1) g)).trans (shapeCast_a_1a_apply _ _ (0 : Fin 1) g)

/-- The output projection's weights as the call finds them: entry (e, f) is entry (f, e) of the argument. -/
theorem v2_apply (e f : Fin 512) :
    (V m c main_v2 : Vec Ideal S512x512 .f32) (ix2 e f)
      = (m ((c : Thread nD τ).loc main_arg4) : Vec Ideal S512x512 .f32) (ix2 f e) := by
  have E : (V m c main_v2 : Vec Ideal S512x512 .f32)
      = transpose S512x512 [1, 0] (m ((c : Thread nD τ).loc main_arg4)) transposes_S512x512_S512x512_1_0 := by
    dsimp only [Gen.V, Gen.hostOps0]; after_results
  exact (congrFun E (ix2 e f)).trans (transpose_ix2_apply _ _ e f)

/-- Its bias as the call finds it: entry (0, f) is entry f of the argument. -/
theorem v3_apply (f : Fin 512) :
    (V m c main_v3 : Vec Ideal S1x512 .f32) (ix2 (0 : Fin 1) f)
      = (m ((c : Thread nD τ).loc main_arg5) : Vec Ideal S512 .f32) (ix1 f) := by
  have E : (V m c main_v3 : Vec Ideal S1x512 .f32)
      = shapeCast S1x512 (m ((c : Thread nD τ).loc main_arg5)) shapeCasts_S512_S1x512 := by
    dsimp only [Gen.V, Gen.hostOps0]; after_results; rfl
  exact (congrFun E (ix2 (0 : Fin 1) f)).trans (shapeCast_a_1a_apply _ _ (0 : Fin 1) f)

/-- The relative-position bias array as the call finds it is the reference program's: the same
    operations on the same two arguments. -/
theorem v11_eq :
    (V m c main_v11 : Vec Ideal S16x49x49 .f32)
      = Cert.ReferenceIdeal.Read.val_main_v22 (F := Ideal) (m ((c : Thread nD τ).loc main_arg6)) (m ((c : Thread nD τ).loc main_arg7)) := by
  dsimp only [Gen.V, Gen.hostOps0]; after_results
  unfold Cert.ReferenceIdeal.Read.val_main_v22 Cert.ReferenceIdeal.Read.val_main_v21 Cert.ReferenceIdeal.Read.val_main_v20
    Cert.ReferenceIdeal.Read.val_main_v19 Cert.ReferenceIdeal.Read.val_main_v18 Cert.ReferenceIdeal.Read.val_main_v17
    Cert.ReferenceIdeal.Read.val_main_v16 Cert.ReferenceIdeal.Read.val_main_v15 Cert.ReferenceIdeal.Read.val_main_c_0
    Cert.ReferenceIdeal.Read.val_main_c
  rfl

end Cert.KernelIdeal.Prelude

end
-- ==== Proof.ArrayValue.lean ====
/-
  The kernel program's result array is the specification's function of its arguments.

  At grid point t the body is handed the blocks of its seven inputs and leaves, in the output block,
  the window function of each of the block's sixteen windows (the block lemma). Block row j at point t
  is window 16·t + j of the array, its mask block row is mask (16·t + j) mod 64 = 16·(t mod 4) + j, and
  the five whole inputs are the transposed weights, the bias rows and the relative-position bias array
  as the host operations before the call leave them. So what point t writes back is block t of the
  specification's array G; the 128 blocks cover the array, so the array after the run is G.
-/
import proofs.«147765_j76562087018560_1_alg».proof.Proof.Gen.KernelIdeal.Value
import proofs.«147765_j76562087018560_1_alg».proof.Proof.Block
import proofs.«147765_j76562087018560_1_alg».proof.Proof.Reads
import proofs.«147765_j76562087018560_1_alg».proof.Proof.Prelude

noncomputable section

namespace Cert.KernelIdeal.ArrayValue

open Cert.KernelIdeal Cert.KernelIdeal.Gen Cert.KernelIdeal.Reads Cert.KernelIdeal.Prelude Cert.KernelIdeal.Block
open Idealize.ShloMosaic Idealize.ShloMosaic.TcCoe Idealize.ShloMosaic.ValueIdx Idealize.SL.Sem Cert.WindowAttn
open Idealize.ShloMosaic.Pipeline (Dat)

variable (m : (ℓ : Loc nD τ sig) → Buf (Elt Ideal) ℓ) (ρ : Dev nD → PrngReg)

/-- The specification's array of the kernel program's arguments on core c; the relative-position bias
    array is what the host operations before the call leave in its buffer. -/
def GA (c : Dev nD) : Vec Ideal S2048x49x512 .f32 :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (V m c main_v11 : Vec Ideal S16x49x49 .f32)

/-- Window 16·t + j uses mask 16·(t mod 4) + j. -/
theorem maskOf_row (t : Fin cfg0.N) (j : Fin 16) : maskOf (row t j) = maskRow t j :=
  Fin.ext (by show (16 * t.val + j.val) % 64 = 16 * (t.val % 4) + j.val; have := j.isLt; omega)

/-- What point t writes back is block t of the specification's array. -/
theorem flushed_eq (c : Dev nD) (t : Fin cfg0.N) :
    (dats m 0 c).flushed 7 t = ((cfg0.win 7).blk t).view.read (Elt Ideal) (GA m c) := by
  rw [Cert.KernelIdeal.Value.flushed7]
  funext y
  obtain ⟨j, n, f, rfl⟩ : ∃ (j : Fin 16) (n : Fin 49) (f : Fin 512), y = ix3 j n f := ⟨y 0, y 1, y 2, eq_ix3 y⟩
  show out0_7 (iblk m c 0 t) (iblk m c 1 t) (iblk m c 2 t) (iblk m c 3 t) (iblk m c 4 t) (iblk m c 5 t) (iblk m c 6 t) (ix3 j n f)
    = GA m c (((cfg0.win 7).blk t).view.emb (ix3 j n f))
  rw [emb7, out0_7_apply]
  unfold GA
  rw [G_ix3]
  have h0 : (fun (n : Fin 49) (e : Fin 512) => iblk m c 0 t (ix3 j n e))
      = fun n e => (m ((c : Thread nD τ).loc main_arg0)) (ix3 (row t j) n e) :=
    funext fun n => funext fun e => (iblk0_apply m c t j n e).trans (congrFun (V_main_arg0 m c) _)
  have h6 : (fun (n k : Fin 49) => iblk m c 6 t (ix3 j n k))
      = fun n k => (m ((c : Thread nD τ).loc main_arg1)) (ix3 (maskOf (row t j)) n k) :=
    funext fun n => funext fun k =>
      ((iblk6_apply m c t j n k).trans (congrFun (V_main_arg1 m c) _)).trans
        (congrArg (fun b : Fin 64 => (m ((c : Thread nD τ).loc main_arg1)) (ix3 b n k)) (maskOf_row t j).symm)
  have h1 : (fun (g : Fin 1536) (e : Fin 512) => iblk m c 1 t (ix2 e g))
      = fun g e => (m ((c : Thread nD τ).loc main_arg2)) (ix2 g e) :=
    funext fun g => funext fun e => by rw [iblk1_eq]; exact v0_apply m c e g
  have h2 : (fun (g : Fin 1536) => iblk m c 2 t (ix2 (0 : Fin 1) g))
      = fun g => (m ((c : Thread nD τ).loc main_arg3)) (ix1 g) :=
    funext fun g => by rw [iblk2_eq]; exact v1_apply m c g
  have h3 : (fun (f : Fin 512) (e : Fin 512) => iblk m c 3 t (ix2 e f))
      = fun f e => (m ((c : Thread nD τ).loc main_arg4)) (ix2 f e) :=
    funext fun f => funext fun e => by rw [iblk3_eq]; exact v2_apply m c e f
  have h4 : (fun (f : Fin 512) => iblk m c 4 t (ix2 (0 : Fin 1) f))
      = fun f => (m ((c : Thread nD τ).loc main_arg5)) (ix1 f) :=
    funext fun f => by rw [iblk4_eq]; exact v3_apply m c f
  have h5 : (fun (h : Fin 16) (n k : Fin 49) => iblk m c 5 t (ix3 h n k))
      = fun h n k => (V m c main_v11 : Vec Ideal S16x49x49 .f32) (ix3 h n k) :=
    funext fun h => funext fun n => funext fun k => by rw [iblk5_eq]
  rw [h0, h6, h1, h2, h3, h4, h5]

/-- The output array after the run. -/
theorem final (c : Dev nD) : (dats m 0 c).arrAt 7 cfg0.N = GA m c :=
  (dats m 0 c).arrAt_eq_of_cover 7 (GA m c) (fun t _ => flushed_eq m c t) cover7

/-- The kernel program's run: every weakly fair execution ends with the result array at the
    specification's function of the arguments, the arguments unchanged. -/
theorem run : θ_run defs (onTc (τ := τ) (main (F := Ideal))) ⟨m, fun _ => 0, ρ⟩ fun r => ∀ c : Dev nD,
      r.2.mem ((c : Thread nD τ).loc main_v12) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.ArrayValue

end
-- ==== Proof.RefIsSpec.lean ====
/-
  The reference program computes the windowed attention of the specification.

  Its 55 host operations are read one at a time at an index: the fused projection as a sum over the 512
  input features, the reshape to [window, token, part, head, lane] and the transpose that brings part
  and head to the front, the three slices (queries, keys, values), the query-key product per (window,
  head) as a sum over the 32 lanes, the scale, the relative-position bias broadcast over windows, the
  mask added through the view of the 2048 windows as 32 groups of 64 (so window b meets mask b mod 64),
  the max-shifted softmax along the last axis, the product with the values as a sum over the 49 tokens,
  the transpose and reshape that lay the heads side by side, and the output projection with its bias.
-/
import proofs.«147765_j76562087018560_1_alg».proof.Proof.Gen.ReferenceIdeal.Read
import proofs.«147765_j76562087018560_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.WindowAttn

/-! ## Where each layout operation reads -/

theorem lidx0 (b : Fin 2048) (n : Fin 49) (g : Fin 1536) (k : Fin 512) :
    lidx_main_v0 (ix3 b n g) k = ix3 b n k :=
  funext fun a => by match a with | ⟨0, _⟩ => rfl | ⟨1, _⟩ => rfl | ⟨2, _⟩ => rfl

theorem ridx0 (b : Fin 2048) (n : Fin 49) (g : Fin 1536) (k : Fin 512) :
    ridx_main_v0 (ix3 b n g) k = ix2 g k :=
  funext fun a => by match a with | ⟨0, _⟩ => rfl | ⟨1, _⟩ => rfl

theorem idx2 (b : Fin 2048) (n : Fin 49) (g : Fin 1536) :
    idx_main_v2 (ix3 b n g) = ix3 (0 : Fin 1) (0 : Fin 1) g :=
  funext fun a => by match a with | ⟨0, _⟩ => rfl | ⟨1, _⟩ => rfl | ⟨2, _⟩ => rfl

theorem idx1 (g : Fin 1536) :
    idx_main_v1 (ix3 (0 : Fin 1) (0 : Fin 1) g) = ix1 g :=
  funext fun a => by match a with | ⟨0, _⟩ => rfl

/-- The reshape of the 1536 columns to (part, head, lane): column 512·part + 32·h + d. -/
theorem idx4 (b : Fin 2048) (n : Fin 49) (p : Fin 3) (h : Fin 16) (d : Fin 32) :
    idx_main_v4 (ix5 b n p h d) = ix3 b n (col p h d) :=
  funext fun a => Fin.ext (by
    have hb := b.isLt; have hn := n.isLt; have hp := p.isLt; have hh := h.isLt; have hd := d.isLt
    match a with
    | ⟨0, _⟩ => show ((((b.val * 49 + n.val) * 3 + p.val) * 16 + h.val) * 32 + d.val) / 75264 = b.val; omega
    | ⟨1, _⟩ => show ((((b.val * 49 + n.val) * 3 + p.val) * 16 + h.val) * 32 + d.val) / 1536 % 49 = n.val; omega
    | ⟨2, _⟩ => show ((((b.val * 49 + n.val) * 3 + p.val) * 16 + h.val) * 32 + d.val) % 1536 = 512 * p.val + 32 * h.val + d.val; omega)

/-- The transpose that brings part and head in front of the token. -/
theorem idx5 (p : Fin 3) (b : Fin 2048) (h : Fin 16) (n : Fin 49) (d : Fin 32) :
    idx_main_v5 (ix5 p b h n d) = ix5 b n p h d :=
  funext fun a => by match a with | ⟨0, _⟩ => rfl | ⟨1, _⟩ => rfl | ⟨2, _⟩ => rfl | ⟨3, _⟩ => rfl | ⟨4, _⟩ => rfl

/-- Slice 0 of the leading axis of size three. -/
theorem idx6 (b : Fin 2048) (h : Fin 16) (n : Fin 49) (d : Fin 32) :
    idx_main_v6 (ix5 (0 : Fin 1) b h n d) = ix5 (0 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

/-- Slice 1 of the leading axis of size three. -/
theorem idx8 (b : Fin 2048) (h : Fin 16) (n : Fin 49) (d : Fin 32) :
    idx_main_v8 (ix5 (0 : Fin 1) b h n d) = ix5 (1 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

/-- Slice 2 of the leading axis of size three. -/
theorem idx10 (b : Fin 2048) (h : Fin 16) (n : Fin 49) (d : Fin 32) :
    idx_main_v10 (ix5 (0 : Fin 1) b h n d) = ix5 (2 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

/-- Dropping the leading unit axis of a [1, 2048, 16, 49, 32] array does not move an element. -/
theorem idx7 (b : Fin 2048) (h : Fin 16) (n : Fin 49) (d : Fin 32) :
    idx_main_v7 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 16 + h.val) * 49 + n.val) * 32 + d.val) / 25088 % 2048 = b.val; omega
    | ⟨2, _⟩ => show (((b.val * 16 + h.val) * 49 + n.val) * 32 + d.val) / 1568 % 16 = h.val; omega
    | ⟨3, _⟩ => show (((b.val * 16 + h.val) * 49 + n.val) * 32 + d.val) / 32 % 49 = n.val; omega
    | ⟨4, _⟩ => show (((b.val * 16 + h.val) * 49 + n.val) * 32 + d.val) % 32 = d.val; omega)

/-- Dropping the leading unit axis of a [1, 2048, 16, 49, 32] array does not move an element. -/
theorem idx9 (b : Fin 2048) (h : Fin 16) (n : Fin 49) (d : Fin 32) :
    idx_main_v9 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 16 + h.val) * 49 + n.val) * 32 + d.val) / 25088 % 2048 = b.val; omega
    | ⟨2, _⟩ => show (((b.val * 16 + h.val) * 49 + n.val) * 32 + d.val) / 1568 % 16 = h.val; omega
    | ⟨3, _⟩ => show (((b.val * 16 + h.val) * 49 + n.val) * 32 + d.val) / 32 % 49 = n.val; omega
    | ⟨4, _⟩ => show (((b.val * 16 + h.val) * 49 + n.val) * 32 + d.val) % 32 = d.val; omega)

/-- Dropping the leading unit axis of a [1, 2048, 16, 49, 32] array does not move an element. -/
theorem idx11 (b : Fin 2048) (h : Fin 16) (n : Fin 49) (d : Fin 32) :
    idx_main_v11 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 16 + h.val) * 49 + n.val) * 32 + d.val) / 25088 % 2048 = b.val; omega
    | ⟨2, _⟩ => show (((b.val * 16 + h.val) * 49 + n.val) * 32 + d.val) / 1568 % 16 = h.val; omega
    | ⟨3, _⟩ => show (((b.val * 16 + h.val) * 49 + n.val) * 32 + d.val) / 32 % 49 = n.val; omega
    | ⟨4, _⟩ => show (((b.val * 16 + h.val) * 49 + n.val) * 32 + d.val) % 32 = d.val; omega)

section
variable (x0 : (⟨S2048x49x512, .f32⟩ : BufTy).Contents (Elt Ideal)) (x1 : (⟨S64x49x49, .f32⟩ : BufTy).Contents (Elt Ideal))
  (x2 : (⟨S1536x512, .f32⟩ : BufTy).Contents (Elt Ideal)) (x3 : (⟨S1536, .f32⟩ : BufTy).Contents (Elt Ideal))
  (x4 : (⟨S512x512, .f32⟩ : BufTy).Contents (Elt Ideal)) (x5 : (⟨S512, .f32⟩ : BufTy).Contents (Elt Ideal))
  (x6 : (⟨S169x16, .f32⟩ : BufTy).Contents (Elt Ideal)) (x7 : (⟨S49x49, .i32⟩ : BufTy).Contents (Elt Ideal))

/-! ## The fused projection and its three parts -/

/-- The fused projection of token n of window b, column g. -/
theorem v3_eq (b : Fin 2048) (n : Fin 49) (g : Fin 1536) :
    val_main_v3 (F := Ideal) x0 x2 x3 (ix3 b n g) = qkv (fun n e => x0 (ix3 b n e)) (fun g e => x2 (ix2 g e)) (fun g => x3 (ix1 g)) n g := by
  rw [val_main_v3_apply, val_main_v0_apply, val_main_v2_apply, idx2, val_main_v1_apply, idx1, Ideal.addf_def]
  unfold qkv
  refine congrArg (· + x3 (ix1 g)) (Finset.sum_congr rfl fun k _ => ?_)
  rw [lidx0, ridx0]

/-- Lane d of head h of token n's query is column (0, h, d) of the fused projection. -/
theorem v7_eq (b : Fin 2048) (h : Fin 16) (n : Fin 49) (d : Fin 32) :
    val_main_v7 (F := Ideal) x0 x2 x3 (ix4 b h n d) = val_main_v3 (F := Ideal) x0 x2 x3 (ix3 b n (col 0 h d)) := by
  rw [val_main_v7_apply, idx7, val_main_v6_apply, idx6, val_main_v5_apply, idx5, val_main_v4_apply, idx4]

/-- Lane d of head h of token n's key is column (1, h, d) of the fused projection. -/
theorem v9_eq (b : Fin 2048) (h : Fin 16) (n : Fin 49) (d : Fin 32) :
    val_main_v9 (F := Ideal) x0 x2 x3 (ix4 b h n d) = val_main_v3 (F := Ideal) x0 x2 x3 (ix3 b n (col 1 h d)) := by
  rw [val_main_v9_apply, idx9, val_main_v8_apply, idx8, val_main_v5_apply, idx5, val_main_v4_apply, idx4]

/-- Lane d of head h of token n's value is column (2, h, d) of the fused projection. -/
theorem v11_eq (b : Fin 2048) (h : Fin 16) (n : Fin 49) (d : Fin 32) :
    val_main_v11 (F := Ideal) x0 x2 x3 (ix4 b h n d) = val_main_v3 (F := Ideal) x0 x2 x3 (ix3 b n (col 2 h d)) := by
  rw [val_main_v11_apply, idx11, val_main_v10_apply, idx10, val_main_v5_apply, idx5, val_main_v4_apply, idx4]

/-! ## The scores -/

theorem lidx12 (b : Fin 2048) (h : Fin 16) (n m : Fin 49) (k : Fin 32) :
    lidx_main_v12 (ix4 b h n m) k = ix4 b h n k :=
  funext fun a => by match a with | ⟨0, _⟩ => rfl | ⟨1, _⟩ => rfl | ⟨2, _⟩ => rfl | ⟨3, _⟩ => rfl

theorem ridx12 (b : Fin 2048) (h : Fin 16) (n m : Fin 49) (k : Fin 32) :
    ridx_main_v12 (ix4 b h n m) k = ix4 b h m k :=
  funext fun a => by match a with | ⟨0, _⟩ => rfl | ⟨1, _⟩ => rfl | ⟨2, _⟩ => rfl | ⟨3, _⟩ => rfl

theorem idx24 (b : Fin 2048) (h : Fin 16) (n m : Fin 49) :
    idx_main_v24 (ix4 b h n m) = ix4 (0 : Fin 1) h n m :=
  funext fun a => by match a with | ⟨0, _⟩ => rfl | ⟨1, _⟩ => rfl | ⟨2, _⟩ => rfl | ⟨3, _⟩ => rfl

theorem idx23 (h : Fin 16) (n m : Fin 49) :
    idx_main_v23 (ix4 (0 : Fin 1) h n m) = ix3 h n m :=
  funext fun a => by match a with | ⟨0, _⟩ => rfl | ⟨1, _⟩ => rfl | ⟨2, _⟩ => rfl

/-- The group of 64 a window belongs to. -/
def groupOf (b : Fin 2048) : Fin 32 := ⟨b.val / 64, by have := b.isLt; omega⟩

/-- The 2048 windows viewed as 32 groups of 64: window b is member b mod 64 of group b / 64. -/
theorem idx30 (b : Fin 2048) (h : Fin 16) (n m : Fin 49) :
    idx_main_v30 (ix4 b h n m) = ix5 (groupOf b) (maskOf b) h n m :=
  funext fun a => Fin.ext (by
    have hb := b.isLt; have hh := h.isLt; have hn := n.isLt; have hm := m.isLt
    match a with
    | ⟨0, _⟩ => show (((b.val * 16 + h.val) * 49 + n.val) * 49 + m.val) / 2458624 = b.val / 64; omega
    | ⟨1, _⟩ => show (((b.val * 16 + h.val) * 49 + n.val) * 49 + m.val) / 38416 % 64 = b.val % 64; omega
    | ⟨2, _⟩ => show (((b.val * 16 + h.val) * 49 + n.val) * 49 + m.val) / 2401 % 16 = h.val; omega
    | ⟨3, _⟩ => show (((b.val * 16 + h.val) * 49 + n.val) * 49 + m.val) / 49 % 49 = n.val; omega
    | ⟨4, _⟩ => show (((b.val * 16 + h.val) * 49 + n.val) * 49 + m.val) % 49 = m.val; omega)

/-- … and back. -/
theorem idx26 (b : Fin 2048) (h : Fin 16) (n m : Fin 49) :
    idx_main_v26 (ix5 (groupOf b) (maskOf b) h n m) = ix4 b h n m :=
  funext fun a => Fin.ext (by
    have hb := b.isLt; have hh := h.isLt; have hn := n.isLt; have hm := m.isLt
    match a with
    | ⟨0, _⟩ => show (((((b.val / 64) * 64 + b.val % 64) * 16 + h.val) * 49 + n.val) * 49 + m.val) / 38416 = b.val; omega
    | ⟨1, _⟩ => show (((((b.val / 64) * 64 + b.val % 64) * 16 + h.val) * 49 + n.val) * 49 + m.val) / 2401 % 16 = h.val; omega
    | ⟨2, _⟩ => show (((((b.val / 64) * 64 + b.val % 64) * 16 + h.val) * 49 + n.val) * 49 + m.val) / 49 % 49 = n.val; omega
    | ⟨3, _⟩ => show (((((b.val / 64) * 64 + b.val % 64) * 16 + h.val) * 49 + n.val) * 49 + m.val) % 49 = m.val; omega)

theorem idx28 (g : Fin 32) (r : Fin 64) (h : Fin 16) (n m : Fin 49) :
    idx_main_v28 (ix5 g r h n m) = ix5 (0 : Fin 1) r (0 : Fin 1) n m :=
  funext fun a => by match a with | ⟨0, _⟩ => rfl | ⟨1, _⟩ => rfl | ⟨2, _⟩ => rfl | ⟨3, _⟩ => rfl | ⟨4, _⟩ => rfl

theorem idx27 (r : Fin 64) (n m : Fin 49) :
    idx_main_v27 (ix5 (0 : Fin 1) r (0 : Fin 1) n m) = ix3 r n m :=
  funext fun a => by match a with | ⟨0, _⟩ => rfl | ⟨1, _⟩ => rfl | ⟨2, _⟩ => rfl

/-- The query-key product of tokens n and m in head h. -/
theorem v12_eq (b : Fin 2048) (h : Fin 16) (n m : Fin 49) :
    val_main_v12 (F := Ideal) x0 x2 x3 (ix4 b h n m) = ∑ d : Fin 32, qkv (fun n e => x0 (ix3 b n e)) (fun g e => x2 (ix2 g e)) (fun g => x3 (ix1 g)) n (col 0 h d) * qkv (fun n e => x0 (ix3 b n e)) (fun g e => x2 (ix2 g e)) (fun g => x3 (ix1 g)) m (col 1 h d) := by
  rw [val_main_v12_apply]
  refine Finset.sum_congr rfl fun k _ => ?_
  rw [lidx12, ridx12, v7_eq, v9_eq, v3_eq, v3_eq]

/-- The score of token n against token m in head h of window b: scaled product, plus the relative-position bias,
    plus the mask of the window's place in its group of 64. -/
theorem v30_eq (b : Fin 2048) (h : Fin 16) (n m : Fin 49) :
    val_main_v30 (F := Ideal) x0 x1 x2 x3 x6 x7 (ix4 b h n m) = score (fun n e => x0 (ix3 b n e)) (fun n m => x1 (ix3 (maskOf b) n m)) (fun g e => x2 (ix2 g e)) (fun g => x3 (ix1 g)) (fun h n m => val_main_v22 (F := Ideal) x6 x7 (ix3 h n m)) h n m := by
  rw [val_main_v30_apply, idx30, val_main_v29_apply, val_main_v26_apply, idx26, val_main_v25_apply, val_main_v14_apply,
    v12_eq, val_main_v13_apply, val_main_cst_apply, val_main_v24_apply, idx24, val_main_v23_apply, idx23,
    val_main_v28_apply, idx28, val_main_v27_apply, idx27, Ideal.addf_def, Ideal.addf_def, Ideal.mulf_def, Ideal.ofBits_def]
  rfl

/-! ## The softmax along a row -/

theorem idx35 (b : Fin 2048) (h : Fin 16) (n m : Fin 49) :
    idx_main_v35 (ix4 b h n m) = ix4 b h n (0 : Fin 1) :=
  funext fun a => by match a with | ⟨0, _⟩ => rfl | ⟨1, _⟩ => rfl | ⟨2, _⟩ => rfl | ⟨3, _⟩ => rfl

theorem idx34 (b : Fin 2048) (h : Fin 16) (n : Fin 49) :
    idx_main_v34 (ix4 b h n (0 : Fin 1)) = ix3 b h n :=
  funext fun a => by match a with | ⟨0, _⟩ => rfl | ⟨1, _⟩ => rfl | ⟨2, _⟩ => rfl

theorem idx40 (b : Fin 2048) (h : Fin 16) (n m : Fin 49) :
    idx_main_v40 (ix4 b h n m) = ix4 b h n (0 : Fin 1) :=
  funext fun a => by match a with | ⟨0, _⟩ => rfl | ⟨1, _⟩ => rfl | ⟨2, _⟩ => rfl | ⟨3, _⟩ => rfl

theorem idx39 (b : Fin 2048) (h : Fin 16) (n : Fin 49) :
    idx_main_v39 (ix4 b h n (0 : Fin 1)) = ix3 b h n :=
  funext fun a => by match a with | ⟨0, _⟩ => rfl | ⟨1, _⟩ => rfl | ⟨2, _⟩ => rfl

theorem idx38 (b : Fin 2048) (h : Fin 16) (n : Fin 49) (k : Fin 49) :
    idx_main_v38 (ix3 b h n) k = ix4 b h n k :=
  funext fun a => by match a with | ⟨0, _⟩ => rfl | ⟨1, _⟩ => rfl | ⟨2, _⟩ => rfl | ⟨3, _⟩ => rfl

/-- The reduction over the last axis is the fold of max over the row, from minus infinity. -/
theorem v31_eq (b : Fin 2048) (h : Fin 16) (n : Fin 49) :
    val_main_v31 (F := Ideal) x0 x1 x2 x3 x6 x7 (ix3 b h n)
      = (Finset.univ : Finset (Fin 49)).fold max negInf (fun m => val_main_v30 (F := Ideal) x0 x1 x2 x3 x6 x7 (ix4 b h n m)) := by
  unfold val_main_v31
  generalize val_main_v30 (F := Ideal) x0 x1 x2 x3 x6 x7 = y
  have hR : S2048x16x49x49.Reduces [3] S2048x16x49 := by decide
  refine (Host.reduce_eq_fold_single (FloatOps.maximumf (F := Ideal) (φ := .f32)) y (val_main_cst_1 (F := Ideal))
    reducesTo_S2048x16x49x49_S2048x16x49_d3 hR h_S_ (ix3 b h n)).trans ?_
  have e : (y ∘ hR.lift (ix3 b h n)) = fun m : Fin 49 => y (ix4 b h n m) :=
    funext fun m => congrArg y (funext fun a => Fin.ext (by
      match a with | ⟨0, _⟩ => rfl | ⟨1, _⟩ => rfl | ⟨2, _⟩ => rfl | ⟨3, _⟩ => rfl))
  rw [e]
  rfl

/-- The row's maximum. -/
theorem v33_eq (b : Fin 2048) (h : Fin 16) (n : Fin 49) :
    val_main_v33 (F := Ideal) x0 x1 x2 x3 x6 x7 (ix3 b h n) = rowMax (score (fun n e => x0 (ix3 b n e)) (fun n m => x1 (ix3 (maskOf b) n m)) (fun g e => x2 (ix2 g e)) (fun g => x3 (ix1 g)) (fun h n m => val_main_v22 (F := Ideal) x6 x7 (ix3 h n m)) h n) := by
  rw [val_main_v33_apply, val_main_v32_apply, val_main_cst_2_apply, v31_eq, Ideal.maximumf_def, Ideal.ofBits_def]
  simp only [v30_eq]
  rfl

/-- The shifted exponential. -/
theorem v37_eq (b : Fin 2048) (h : Fin 16) (n m : Fin 49) :
    val_main_v37 (F := Ideal) x0 x1 x2 x3 x6 x7 (ix4 b h n m) = rowExp (score (fun n e => x0 (ix3 b n e)) (fun n m => x1 (ix3 (maskOf b) n m)) (fun g e => x2 (ix2 g e)) (fun g => x3 (ix1 g)) (fun h n m => val_main_v22 (F := Ideal) x6 x7 (ix3 h n m)) h n) m := by
  rw [val_main_v37_apply, val_main_v36_apply, v30_eq, val_main_v35_apply, idx35, val_main_v34_apply, idx34, v33_eq,
    Ideal.hostUnary_exp_def, Ideal.subf_def]
  rfl

/-- The weight. -/
theorem v41_eq (b : Fin 2048) (h : Fin 16) (n m : Fin 49) :
    val_main_v41 (F := Ideal) x0 x1 x2 x3 x6 x7 (ix4 b h n m) = softmax (score (fun n e => x0 (ix3 b n e)) (fun n m => x1 (ix3 (maskOf b) n m)) (fun g e => x2 (ix2 g e)) (fun g => x3 (ix1 g)) (fun h n m => val_main_v22 (F := Ideal) x6 x7 (ix3 h n m)) h n) m := by
  rw [val_main_v41_apply, v37_eq, val_main_v40_apply, idx40, val_main_v39_apply, idx39, val_main_v38_apply,
    val_main_cst_3_apply, Ideal.hostDivf_def, Ideal.ofBits_def, Ideal.ofBits_zero_f32, zero_add]
  unfold softmax
  refine congrArg (Ideal.div _) (Finset.sum_congr rfl fun k _ => ?_)
  rw [idx38, v37_eq]

/-! ## The weighted values, the heads side by side, the second projection -/

theorem lidx42 (b : Fin 2048) (h : Fin 16) (d : Fin 32) (n k : Fin 49) :
    lidx_main_v42 (ix4 b h d n) k = ix4 b h k d :=
  funext fun a => by match a with | ⟨0, _⟩ => rfl | ⟨1, _⟩ => rfl | ⟨2, _⟩ => rfl | ⟨3, _⟩ => rfl

theorem ridx42 (b : Fin 2048) (h : Fin 16) (d : Fin 32) (n k : Fin 49) :
    ridx_main_v42 (ix4 b h d n) k = ix4 b h n k :=
  funext fun a => by match a with | ⟨0, _⟩ => rfl | ⟨1, _⟩ => rfl | ⟨2, _⟩ => rfl | ⟨3, _⟩ => rfl

theorem idx43 (b : Fin 2048) (n : Fin 49) (h : Fin 16) (d : Fin 32) :
    idx_main_v43 (ix4 b n h d) = ix4 b h d n :=
  funext fun a => by match a with | ⟨0, _⟩ => rfl | ⟨1, _⟩ => rfl | ⟨2, _⟩ => rfl | ⟨3, _⟩ => rfl

/-- Feature e of the merged heads is lane e mod 32 of head e / 32. -/
theorem idx44 (b : Fin 2048) (n : Fin 49) (e : Fin 512) :
    idx_main_v44 (ix3 b n e) = ix4 b n (headOf e) (laneOf e) :=
  funext fun a => Fin.ext (by
    have hb := b.isLt; have hn := n.isLt; have he := e.isLt
    match a with
    | ⟨0, _⟩ => show ((b.val * 49 + n.val) * 512 + e.val) / 25088 = b.val; omega
    | ⟨1, _⟩ => show ((b.val * 49 + n.val) * 512 + e.val) / 512 % 49 = n.val; omega
    | ⟨2, _⟩ => show ((b.val * 49 + n.val) * 512 + e.val) / 32 % 16 = e.val / 32; omega
    | ⟨3, _⟩ => show ((b.val * 49 + n.val) * 512 + e.val) % 32 = e.val % 32; omega)

theorem lidx45 (b : Fin 2048) (n : Fin 49) (f k : Fin 512) :
    lidx_main_v45 (ix3 b n f) k = ix3 b n k :=
  funext fun a => by match a with | ⟨0, _⟩ => rfl | ⟨1, _⟩ => rfl | ⟨2, _⟩ => rfl

theorem ridx45 (b : Fin 2048) (n : Fin 49) (f k : Fin 512) :
    ridx_main_v45 (ix3 b n f) k = ix2 f k :=
  funext fun a => by match a with | ⟨0, _⟩ => rfl | ⟨1, _⟩ => rfl

theorem idx47 (b : Fin 2048) (n : Fin 49) (f : Fin 512) :
    idx_main_v47 (ix3 b n f) = ix3 (0 : Fin 1) (0 : Fin 1) f :=
  funext fun a => by match a with | ⟨0, _⟩ => rfl | ⟨1, _⟩ => rfl | ⟨2, _⟩ => rfl

theorem idx46 (f : Fin 512) :
    idx_main_v46 (ix3 (0 : Fin 1) (0 : Fin 1) f) = ix1 f :=
  funext fun a => by match a with | ⟨0, _⟩ => rfl

/-- Lane d of head h's result for token n. The program multiplies value by weight; the product commutes. -/
theorem v42_eq (b : Fin 2048) (h : Fin 16) (d : Fin 32) (n : Fin 49) :
    val_main_v42 (F := Ideal) x0 x1 x2 x3 x6 x7 (ix4 b h d n) = headOut (fun n e => x0 (ix3 b n e)) (fun n m => x1 (ix3 (maskOf b) n m)) (fun g e => x2 (ix2 g e)) (fun g => x3 (ix1 g)) (fun h n m => val_main_v22 (F := Ideal) x6 x7 (ix3 h n m)) h n d := by
  rw [val_main_v42_apply]
  unfold headOut
  refine Finset.sum_congr rfl fun k _ => ?_
  rw [lidx42, ridx42, v11_eq, v3_eq, v41_eq, mul_comm]

/-- The heads side by side. -/
theorem v44_eq (b : Fin 2048) (n : Fin 49) (e : Fin 512) :
    val_main_v44 (F := Ideal) x0 x1 x2 x3 x6 x7 (ix3 b n e) = merged (fun n e => x0 (ix3 b n e)) (fun n m => x1 (ix3 (maskOf b) n m)) (fun g e => x2 (ix2 g e)) (fun g => x3 (ix1 g)) (fun h n m => val_main_v22 (F := Ideal) x6 x7 (ix3 h n m)) n e := by
  rw [val_main_v44_apply, idx44, val_main_v43_apply, idx43, v42_eq]
  rfl

/-- The window's result. -/
theorem v48_eq (b : Fin 2048) (n : Fin 49) (f : Fin 512) :
    val_main_v48 (F := Ideal) x0 x1 x2 x3 x4 x5 x6 x7 (ix3 b n f)
      = window (fun n e => x0 (ix3 b n e)) (fun n m => x1 (ix3 (maskOf b) n m)) (fun g e => x2 (ix2 g e)) (fun g => x3 (ix1 g)) (fun h n m => val_main_v22 (F := Ideal) x6 x7 (ix3 h n m)) (fun f e => x4 (ix2 f e)) (fun f => x5 (ix1 f)) n f := by
  rw [val_main_v48_apply, val_main_v45_apply, val_main_v47_apply, idx47, val_main_v46_apply, idx46, Ideal.addf_def]
  unfold window
  refine congrArg (· + x5 (ix1 f)) (Finset.sum_congr rfl fun k _ => ?_)
  rw [lidx45, ridx45, v44_eq]

end

/-- The reference's result array is the specification's function of the six float arguments and of the
    relative-position bias array the program gathers from its last two arguments (kept as one unopened term). -/
theorem ref_eq (x0 : (⟨S2048x49x512, .f32⟩ : BufTy).Contents (Elt Ideal)) (x1 : (⟨S64x49x49, .f32⟩ : BufTy).Contents (Elt Ideal))
    (x2 : (⟨S1536x512, .f32⟩ : BufTy).Contents (Elt Ideal)) (x3 : (⟨S1536, .f32⟩ : BufTy).Contents (Elt Ideal))
    (x4 : (⟨S512x512, .f32⟩ : BufTy).Contents (Elt Ideal)) (x5 : (⟨S512, .f32⟩ : BufTy).Contents (Elt Ideal))
    (x6 : (⟨S169x16, .f32⟩ : BufTy).Contents (Elt Ideal)) (x7 : (⟨S49x49, .i32⟩ : BufTy).Contents (Elt Ideal)) :
    val_main_v48 (F := Ideal) x0 x1 x2 x3 x4 x5 x6 x7
      = G x0 x1 x2 x3 x4 x5 (val_main_v22 (F := Ideal) x6 x7) := by
  funext i
  obtain ⟨b, n, f, rfl⟩ : ∃ (b : Fin 2048) (n : Fin 49) (f : Fin 512), i = ix3 b n f := ⟨i 0, i 1, i 2, eq_ix3 i⟩
  rw [G_ix3]
  exact v48_eq x0 x1 x2 x3 x4 x5 x6 x7 b n f

end Cert.ReferenceIdeal.RefValue

end
-- ==== Proof.lean ====
/-
  Windowed multi-head self-attention: a Pallas kernel that handles sixteen windows per grid point
  against a plain jnp reference over all 2048 windows.

  At the ideal values (floats read as extended reals, every operation exact, a change of float
  format the identity) both programs compute, for every window, the function `Cert.WindowAttn.window`
  of that window's tokens and mask: a fused query/key/value projection, per head the scaled
  query-key scores plus the relative-position bias plus the mask, a max-shifted softmax along each
  row, the weighted average of the values, the heads side by side, and an output projection. The two
  programs differ only in how the work is laid out: the kernel walks the windows in blocks of sixteen
  and the heads one at a time over 32-lane slices of 512-wide arrays, with its weight matrices
  transposed beforehand, while the reference reshapes to [window, head, token, lane] arrays and
  contracts them whole; the kernel multiplies weight by value where the reference multiplies value by
  weight. Both gather the relative-position bias array from the bias table and the index array with
  the same operations, and that array is carried as one unopened term. Both scale the scores by the
  same float literal and start the row maximum from the same minus infinity, so neither is evaluated,
  and no step of the comparison needs the inputs to be finite.

  The kernel's result array is the specification's G (ArrayValue, over Block, Pieces, HeadFn, Proj,
  Reads, Prelude); the reference's result array is the same G (RefIsSpec). The three frames are the
  generated frame runs; there is nothing for the idealization to preserve, the kernel's text being
  read as it stands.
-/
import proofs.«147765_j76562087018560_1_alg».proof.Defs
import proofs.«147765_j76562087018560_1_alg».proof.Proof.Gen.Kernel
import proofs.«147765_j76562087018560_1_alg».proof.Proof.Gen.Kernel.Skeleton
import proofs.«147765_j76562087018560_1_alg».proof.Proof.Gen.Kernel.Launch
import proofs.«147765_j76562087018560_1_alg».proof.Proof.Gen.Kernel.Points
import proofs.«147765_j76562087018560_1_alg».proof.Proof.Gen.Kernel.Frame
import proofs.«147765_j76562087018560_1_alg».proof.Proof.Gen.KernelIdeal
import proofs.«147765_j76562087018560_1_alg».proof.Proof.Gen.KernelIdeal.Skeleton
import proofs.«147765_j76562087018560_1_alg».proof.Proof.Gen.KernelIdeal.Launch
import proofs.«147765_j76562087018560_1_alg».proof.Proof.Gen.KernelIdeal.Points
import proofs.«147765_j76562087018560_1_alg».proof.Proof.Gen.KernelIdeal.Frame
import proofs.«147765_j76562087018560_1_alg».proof.Proof.Gen.ReferenceIdeal
import proofs.«147765_j76562087018560_1_alg».proof.Proof.Gen.Pre_finite_inputs
import proofs.«147765_j76562087018560_1_alg».proof.Proof.Gen.KernelIdeal.Value
import proofs.«147765_j76562087018560_1_alg».proof.Proof.Gen.ReferenceIdeal.Run
import proofs.«147765_j76562087018560_1_alg».proof.Proof.Gen.ReferenceIdeal.Read
import proofs.«147765_j76562087018560_1_alg».proof.Proof.ArrayValue
import proofs.«147765_j76562087018560_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the eight arguments both idealized programs end with the same result
    array: the specification's G of the six float arguments and of the bias array gathered from the
    last two. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ArrayValue.GA m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v48_eq, Cert.ReferenceIdeal.RefValue.ref_eq, a0, a1, a2, a3, a4, a5, a6, a7]
  exact congrArg (Cert.WindowAttn.G _ _ _ _ _ _) (Cert.KernelIdeal.Prelude.v11_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
